-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x16384 : Shape := ⟨3, ![128, 64, 16384]⟩
abbrev S16x64 : Shape := ⟨2, ![16, 64]⟩
abbrev S16 : Shape := ⟨1, ![16]⟩
abbrev S64x16 : Shape := ⟨2, ![64, 16]⟩
abbrev S64 : Shape := ⟨1, ![64]⟩
abbrev S_ : Shape := ⟨0, ![]⟩

class Facts : Prop where
  bcast_S_S128x64x16384 : S_.BroadcastsInDim S128x64x16384 (![] : Fin 0 → Fin S128x64x16384.rank)
  reducesTo_S128x64x16384_S_d0_1_2 : S128x64x16384.ReducesTo [0, 1, 2] S_
  h_S_ : 0 < S_.numel
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S128x64x16384 .f32) (main_arg1 : FVec F S16x64 .f32) (main_arg2 : FVec F S16 .f32) (main_arg3 : FVec F S64x16 .f32) (main_arg4 : FVec F S64 .f32) : IVec S_ 1 :=
  let main_v0 : FVec F S128x64x16384 .f32 := Host.absf main_arg0
  let main_cst : FVec F S_ .f32 := constant S_ .f32 0x7F800000#32
  let main_v1 : FVec F S128x64x16384 .f32 := broadcastInDim S128x64x16384 ![] bcast_S_S128x64x16384 main_cst
  let main_v2 : IVec S128x64x16384 1 := cmpf .olt main_v0 main_v1
  let main_c : IVec S_ 1 := constantI S_ 1 1#1
  let main_v3 : IVec S_ 1 := (fun x v => Host.reduce IntOp.andi x v reducesTo_S128x64x16384_S_d0_1_2 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_v13 main_v16
-- ==== Kernel.lean ====
abbrev S128x64x16384 : Shape := ⟨3, ![128, 64, 16384]⟩
abbrev S16x64 : Shape := ⟨2, ![16, 64]⟩
abbrev S16 : Shape := ⟨1, ![16]⟩
abbrev S64x16 : Shape := ⟨2, ![64, 16]⟩
abbrev S64 : Shape := ⟨1, ![64]⟩
abbrev S128x64 : Shape := ⟨2, ![128, 64]⟩
abbrev S64x64x1024 : Shape := ⟨3, ![64, 64, 1024]⟩
abbrev S64x64 : Shape := ⟨2, ![64, 64]⟩
abbrev S1x16 : Shape := ⟨2, ![1, 16]⟩
abbrev S1x64 : Shape := ⟨2, ![1, 64]⟩
abbrev S64x64x512 : Shape := ⟨3, ![64, 64, 512]⟩
abbrev S64x64x1 : Shape := ⟨3, ![64, 64, 1]⟩

abbrev nBuf : Space → Nat
  | .hbm => 7
  | .vmem => 15
  | .smem => 0
  | _ => 0

abbrev bufTy : (tb : Table) → Fin (tcTables nBuf tb) → BufTy
  | .hbm, ⟨0, _⟩ => ⟨S128x64x16384, .f32⟩
  | .hbm, ⟨1, _⟩ => ⟨S16x64, .f32⟩
  | .hbm, ⟨2, _⟩ => ⟨S16, .f32⟩
  | .hbm, ⟨3, _⟩ => ⟨S64x16, .f32⟩
  | .hbm, ⟨4, _⟩ => ⟨S64, .f32⟩
  | .hbm, ⟨5, _⟩ => ⟨S128x64, .f32⟩
  | .hbm, ⟨6, _⟩ => ⟨S128x64x16384, .f32⟩
  | .local _ .vmem, ⟨0, _⟩ => ⟨S64x64x1024, .f32⟩
  | .local _ .vmem, ⟨1, _⟩ => ⟨S64x64x1024, .f32⟩
  | .local _ .vmem, ⟨2, _⟩ => ⟨S16x64, .f32⟩
  | .local _ .vmem, ⟨3, _⟩ => ⟨S16, .f32⟩
  | .local _ .vmem, ⟨4, _⟩ => ⟨S64x16, .f32⟩
  | .local _ .vmem, ⟨5, _⟩ => ⟨S64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64x64x512, .f32⟩
  | .local _ .vmem, ⟨10, _⟩ => ⟨S64x64x512, .f32⟩
  | .local _ .vmem, ⟨11, _⟩ => ⟨S64x64, .f32⟩
  | .local _ .vmem, ⟨12, _⟩ => ⟨S64x64, .f32⟩
  | .local _ .vmem, ⟨13, _⟩ => ⟨S64x64x512, .f32⟩
  | .local _ .vmem, ⟨14, _⟩ => ⟨S64x64x512, .f32⟩
  | _, _ => ⟨S128x64x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v10 : BitVec 1 := Scalar.cmpi .eq arg1 c15_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S64x64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S64x64x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x64x1024_S64x64x1024_0_0_0 : ∀ a, (![0, 0, 0] : Fin 3 → Nat) a + S64x64x1024.size a ≤ S64x64x1024.size a
  h_S64x64x1024 : 0 < S64x64x1024.numel
  reduces_S64x64x1024_S64x64 : S64x64x1024.Reduces [2] S64x64
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  transposes_S16x64_p1_0_S64x16 : S16x64.Transposes [1, 0] S64x16
  inb_S16_S16_0 : ∀ a, (![0] : Fin 1 → Nat) a + S16.size a ≤ S16.size a
  h_S16 : 0 < S16.numel
  shapeCasts_S16_S1x16 : S16.ShapeCasts S1x16
  broadcasts_S1x16_S64x16 : S1x16.Broadcasts S64x16
  inb_S64x16_S64x16_0_0 : ∀ a, (![0, 0] : Fin 2 → Nat) a + S64x16.size a ≤ S64x16.size a
  h_S64x16 : 0 < S64x16.numel
  transposes_S64x16_p1_0_S16x64 : S64x16.Transposes [1, 0] S16x64
  inb_S64_S64_0 : ∀ a, (![0] : Fin 1 → Nat) a + S64.size a ≤ S64.size a
  h_S64 : 0 < S64.numel
  shapeCasts_S64_S1x64 : S64.ShapeCasts S1x64
  broadcasts_S1x64_S64x64 : S1x64.Broadcasts S64x64
  inb_S64x64x512_S64x64x512_0_0_0 : ∀ a, (![0, 0, 0] : Fin 3 → Nat) a + S64x64x512.size a ≤ S64x64x512.size a
  h_S64x64x512 : 0 < S64x64x512.numel
  shapeCasts_S64x64_S64x64x1 : S64x64.ShapeCasts S64x64x1
  broadcasts_S64x64x1_S64x64x512 : S64x64x1.Broadcasts S64x64x512
  dot_S64x64_S64x16_S64x16_1_0_0_1_n_n_wf : DotDims.WF S64x64 S64x16 S64x16 [1] [0] [0] [1] [] []
  dot_S64x16_S16x64_S64x64_1_0_0_1_n_n_wf : DotDims.WF S64x16 S16x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x1024.size a ≤ S128x64x16384.size a
  hwx0_0 : ∀ i : grid0.Coords, EltTy.bits .f32 = 32 ∨ (Rect.block (s := S128x64x16384) S64x64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S128x64.size a
  hwx0_5 : ∀ i : grid0.Coords, EltTy.bits .f32 = 32 ∨ (Rect.block (s := S128x64) S64x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x64x512.size a ≤ S128x64x16384.size a
  hwx1_0 : ∀ i : grid1.Coords, EltTy.bits .f32 = 32 ∨ (Rect.block (s := S128x64x16384) S64x64x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S128x64.size a
  hwx1_1 : ∀ i : grid1.Coords, EltTy.bits .f32 = 32 ∨ (Rect.block (s := S128x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x64x512.size a ≤ S128x64x16384.size a
  hwx1_2 : ∀ i : grid1.Coords, EltTy.bits .f32 = 32 ∨ (Rect.block (s := S128x64x16384) S64x64x512.size (cc1_transform_2 i) (hinb1_2 i)).WholeWords (EltTy.packing .f32)

variable [Facts₀]

def dot_S64x64_S64x16_S64x16_1_0_0_1_n_n : DotDims S64x64 S64x16 S64x16 where
  lhsContracting := [1]
  rhsContracting := [0]
  lhsNonContracting := [0]
  rhsNonContracting := [1]
  lhsBatch := []
  rhsBatch := []
  wf := dot_S64x64_S64x16_S64x16_1_0_0_1_n_n_wf
def dot_S64x16_S16x64_S64x64_1_0_0_1_n_n : DotDims S64x16 S16x64 S64x64 where
  lhsContracting := [1]
  rhsContracting := [0]
  lhsNonContracting := [0]
  rhsNonContracting := [1]
  lhsBatch := []
  rhsBatch := []
  wf := dot_S64x16_S16x64_S64x64_1_0_0_1_n_n_wf

abbrev win0_0 : Pipeline.Window sig grid0 :=
  Pipeline.Window.ofSpec (Memref.whole main_arg0) S64x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S64x64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S64x64x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S128x64x16384 : Shape := ⟨3, ![128, 64, 16384]⟩
abbrev S16x64 : Shape := ⟨2, ![16, 64]⟩
abbrev S16 : Shape := ⟨1, ![16]⟩
abbrev S64x16 : Shape := ⟨2, ![64, 16]⟩
abbrev S64 : Shape := ⟨1, ![64]⟩
abbrev S_ : Shape := ⟨0, ![]⟩
abbrev S128x64 : Shape := ⟨2, ![128, 64]⟩
abbrev S128x16 : Shape := ⟨2, ![128, 16]⟩
abbrev S1x16 : Shape := ⟨2, ![1, 16]⟩
abbrev S1x64 : Shape := ⟨2, ![1, 64]⟩
abbrev S128x64x1 : Shape := ⟨3, ![128, 64, 1]⟩

abbrev nBuf : Space → Nat
  | .hbm => 32
  | .vmem => 0
  | .smem => 0
  | _ => 0

abbrev bufTy : (tb : Table) → Fin (tcTables nBuf tb) → BufTy
  | .hbm, ⟨0, _⟩ => ⟨S128x64x16384, .f32⟩
  | .hbm, ⟨1, _⟩ => ⟨S16x64, .f32⟩
  | .hbm, ⟨2, _⟩ => ⟨S16, .f32⟩
  | .hbm, ⟨3, _⟩ => ⟨S64x16, .f32⟩
  | .hbm, ⟨4, _⟩ => ⟨S64, .f32⟩
  | .hbm, ⟨5, _⟩ => ⟨S_, .f32⟩
  | .hbm, ⟨6, _⟩ => ⟨S128x64, .f32⟩
  | .hbm, ⟨7, _⟩ => ⟨S_, .f32⟩
  | .hbm, ⟨8, _⟩ => ⟨S128x64, .f32⟩
  | .hbm, ⟨9, _⟩ => ⟨S128x64, .f32⟩
  | .hbm, ⟨10, _⟩ => ⟨S128x16, .f32⟩
  | .hbm, ⟨11, _⟩ => ⟨S1x16, .f32⟩
  | .hbm, ⟨12, _⟩ => ⟨S128x16, .f32⟩
  | .hbm, ⟨13, _⟩ => ⟨S128x16, .f32⟩
  | .hbm, ⟨14, _⟩ => ⟨S_, .f32⟩
  | .hbm, ⟨15, _⟩ => ⟨S128x16, .f32⟩
  | .hbm, ⟨16, _⟩ => ⟨S128x16, .f32⟩
  | .hbm, ⟨17, _⟩ => ⟨S128x64, .f32⟩
  | .hbm, ⟨18, _⟩ => ⟨S1x64, .f32⟩
  | .hbm, ⟨19, _⟩ => ⟨S128x64, .f32⟩
  | .hbm, ⟨20, _⟩ => ⟨S128x64, .f32⟩
  | .hbm, ⟨21, _⟩ => ⟨S128x64, .f32⟩
  | .hbm, ⟨22, _⟩ => ⟨S128x64, .f32⟩
  | .hbm, ⟨23, _⟩ => ⟨S_, .f32⟩
  | .hbm, ⟨24, _⟩ => ⟨S128x64, .f32⟩
  | .hbm, ⟨25, _⟩ => ⟨S128x64, .f32⟩
  | .hbm, ⟨26, _⟩ => ⟨S_, .f32⟩
  | .hbm, ⟨27, _⟩ => ⟨S128x64, .f32⟩
  | .hbm, ⟨28, _⟩ => ⟨S128x64, .f32⟩
  | .hbm, ⟨29, _⟩ => ⟨S128x64x1, .f32⟩
  | .hbm, ⟨30, _⟩ => ⟨S128x64x16384, .f32⟩
  | .hbm, ⟨31, _⟩ => ⟨S128x64x16384, .f32⟩
  | _, _ => ⟨S128x64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S128x64x16384_S128x64_d2 : S128x64x16384.ReducesTo [2] S128x64
  h_S_ : 0 < S_.numel
  bcast_S_S128x64 : S_.BroadcastsInDim S128x64 (![] : Fin 0 → Fin S128x64.rank)
  bcast_S16_S1x16_1 : S16.BroadcastsInDim S1x16 (![1] : Fin 1 → Fin S1x16.rank)
  bcast_S1x16_S128x16_0_1 : S1x16.BroadcastsInDim S128x16 (![0, 1] : Fin 2 → Fin S128x16.rank)
  bcast_S_S128x16 : S_.BroadcastsInDim S128x16 (![] : Fin 0 → Fin S128x16.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S128x64_S128x64x1_0_1 : S128x64.BroadcastsInDim S128x64x1 (![0, 1] : Fin 2 → Fin S128x64x1.rank)
  bcast_S128x64x1_S128x64x16384_0_1_2 : S128x64x1.BroadcastsInDim S128x64x16384 (![0, 1, 2] : Fin 3 → Fin S128x64x16384.rank)
  dot_S128x64_S16x64_S128x16_1_1_0_0_n_n_wf : DotDims.WF S128x64 S16x64 S128x16 [1] [1] [0] [0] [] []
  dot_S128x16_S64x16_S128x64_1_1_0_0_n_n_wf : DotDims.WF S128x16 S64x16 S128x64 [1] [1] [0] [0] [] []

variable [Facts₀]

def dot_S128x64_S16x64_S128x16_1_1_0_0_n_n : DotDims S128x64 S16x64 S128x16 where
  lhsContracting := [1]
  rhsContracting := [1]
  lhsNonContracting := [0]
  rhsNonContracting := [0]
  lhsBatch := []
  rhsBatch := []
  wf := dot_S128x64_S16x64_S128x16_1_1_0_0_n_n_wf
def dot_S128x16_S64x16_S128x64_1_1_0_0_n_n : DotDims S128x16 S64x16 S128x64 where
  lhsContracting := [1]
  rhsContracting := [1]
  lhsNonContracting := [0]
  rhsNonContracting := [0]
  lhsBatch := []
  rhsBatch := []
  wf := dot_S128x16_S64x16_S128x64_1_1_0_0_n_n_wf

class Facts : Prop extends Facts₀ where

variable [Facts]
-- ==== Proof.Bits.Setup.lean ====
/- The two pallas_calls of the program, as data for the pipeline rule, at any float instance.
   Region 0 (grid 2 x 16) streams x in tiles of 1024 lanes: a scratch of shape [64, 64] is zeroed at the first tile of a
   row block, takes the tile's lane sums at every tile, and at the last tile the gate (mean, two small products, relu,
   logistic) is stored into the output window. Region 1 (grid 2 x 32) multiplies each tile of x by the gate's block.
   Here: each window's block at a grid point, the scratch's contents after each point by recursion on the point
   (`accAt0`), the invariant that carries it between points (`PhiS0`), and the proof data of both regions, stated at
   the contents `V` the core's buffers hold when the region is entered. -/
import proofs.«130802_j61168924230407_1_alg».proof.Proof.Gen.Kernel.Launch
import proofs.«130802_j61168924230407_1_alg».proof.Proof.Gen.Kernel.Skeleton
import proofs.«130802_j61168924230407_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: blocks, branch conditions, idle points -/

/-- Window `w`'s block at point `t` of region 0, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The five input blocks at their literal shapes: the tile of x, and the whole of w1, b1, w2, b2. -/
abbrev xblk0 (c : Dev nD) (t : Fin cfg0.N) : Vec F S64x64x1024 .f32 := iblk0 V c 0 t
abbrev w1blk0 (c : Dev nD) (t : Fin cfg0.N) : Vec F S16x64 .f32 := iblk0 V c 1 t
abbrev b1blk0 (c : Dev nD) (t : Fin cfg0.N) : Vec F S16 .f32 := iblk0 V c 2 t
abbrev w2blk0 (c : Dev nD) (t : Fin cfg0.N) : Vec F S64x16 .f32 := iblk0 V c 3 t
abbrev b2blk0 (c : Dev nD) (t : Fin cfg0.N) : Vec F S64 .f32 := iblk0 V c 4 t

/-- "This is the first tile of its row block": the body's first branch. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- "This is the last tile of its row block": the body's second branch. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last tile the output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-- The staging memrefs the pipeline passes the body at point `t`, and the scratch. -/
abbrev ms0_0 (t : Fin cfg0.N) : Memref sig .tc .vmem S64x64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x64 .f32 := win0_5.stage (cfg0.slots t 5)
abbrev hs0_5 (t : Fin cfg0.N) : (ms0_5 t).IsWhole := hstage0_5 ((cfg0.slots t 5).cast nbuf0_5)
abbrev scM0 : Memref sig .tc .vmem S64x64 .f32 := Memref.whole cc0_scratch0

/-- The scoped buffers region 0 never touches (region 1's staging buffers), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant of region 0 spelled out: the scratch at some contents, the untouched scoped buffers, the
    generator register at some state. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

/-! ## Region 0: what the scratch and the output window hold after each point -/

/-- The scratch after the body at point `n`: at the first tile of a row block the tile's lane sums added to zero,
    afterwards added to what the point before left. -/
def accAt0 (c : Dev nD) : (n : ℕ) → n < cfg0.N → Vec F S64x64 .f32
  | 0, hn => k0_pay2 (k0_pay1 (F := F)) (xblk0 V c ⟨0, hn⟩)
  | n + 1, hn =>
    if (n + 1) % 16 = 0 then k0_pay2 (k0_pay1 (F := F)) (xblk0 V c ⟨n + 1, hn⟩)
    else k0_pay2 (accAt0 c n (Nat.lt_of_succ_lt hn)) (xblk0 V c ⟨n + 1, hn⟩)

theorem accAt0_reset (c : Dev nD) (t : Fin cfg0.N) (h : t.val % 16 = 0) :
    accAt0 V c t.val t.isLt = k0_pay2 (k0_pay1 (F := F)) (xblk0 V c t) := by
  obtain ⟨n, hn⟩ := t
  cases n with
  | zero => rfl
  | succ n => exact if_pos h

theorem accAt0_step (c : Dev nD) (t : Fin cfg0.N) (h : ¬t.val % 16 = 0) :
    accAt0 V c t.val t.isLt = k0_pay2 (accAt0 V c (t.val - 1) (Nat.lt_of_le_of_lt (Nat.sub_le _ _) t.isLt)) (xblk0 V c t) := by
  obtain ⟨n, hn⟩ := t
  cases n with
  | zero => exact absurd (Nat.zero_mod _) h
  | succ n => exact if_neg h

/-- What the last tile's point stores into the output window: the gate of the accumulated sums. (At the other points
    the window is idle and this value is consulted by nothing.) -/
def sAt0 (c : Dev nD) (t : Fin cfg0.N) : Vec F S64x64 .f32 :=
  k0_pay3 (accAt0 V c t.val t.isLt) (w1blk0 V c t) (b1blk0 V c t) (w2blk0 V c t) (b2blk0 V c t)

/-- The invariant before point `n`: before the first point the class's; afterwards the scratch at what the point before
    left, the untouched scoped buffers, the generator register. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (accAt0 V c n hn) ∗ rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare (accAt0 V c (n - 1) (by omega)) ∗ rest0 (F := F) c) ∗ (∃ r, prngReg c r)) := by
  cases n with
  | zero => exact absurd rfl hz
  | succ n => rfl

/-- Region 0's proof data at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => sAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = sAt0 V c t := by dsimp only [dat0]

/-- An input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of x and the block of the gate at point `t` of region 1, at their literal shapes. -/
abbrev xblk1 (c : Dev nD) (t : Fin cfg1.N) : Vec F S64x64x512 .f32 := iblk1 V c 0 t
abbrev sblk1 (c : Dev nD) (t : Fin cfg1.N) : Vec F S64x64 .f32 := iblk1 V c 1 t

abbrev ms1_0 (t : Fin cfg1.N) : Memref sig .tc .vmem S64x64x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64x512 .f32 := win1_2.stage (cfg1.slots t 2)
abbrev hs1_2 (t : Fin cfg1.N) : (ms1_2 t).IsWhole := hstage1_2 ((cfg1.slots t 2).cast nbuf1_2)

/-- What the body of region 1 stores at point `t`: the tile of x times the gate's block spread along the lanes. -/
def oAt1 (c : Dev nD) (t : Fin cfg1.N) : Vec F S64x64x512 .f32 := k1_pay1 (xblk1 V c t) (sblk1 V c t)

/-- Region 1's proof data at the entry contents `V`: the class invariant, untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => oAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = oAt1 V c t := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

end Cert.Kernel.Hand

end
-- ==== Proof.Bits.PoolRun.lean ====
/- The body of region 0 run once, in each of its three control cases, on whole staging memrefs: the five inputs at
   given contents (handed back unchanged), the scratch and the output window's buffer as the case needs them. -/
import proofs.«130802_j61168924230407_1_alg».proof.Proof.Bits.Setup
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of the whole-buffer rectangles, as constant functions. -/
private theorem z1 : (![0] : Fin 1 → ℕ) = fun _ => 0 := funext fun a => by fin_cases a <;> rfl
private theorem z2 : (![0, 0] : Fin 2 → ℕ) = fun _ => 0 := funext fun a => by fin_cases a <;> rfl
private theorem z3 : (![0, 0, 0] : Fin 3 → ℕ) = fun _ => 0 := funext fun a => by fin_cases a <;> rfl

set_option maxHeartbeats 1000000 in
/-- First tile of a row block (and not the last): whatever the scratch held, it ends at the tile's lane sums added to
    zero; the output window's buffer is not stored into. -/
theorem pool_run_A (c : Dev nD) (i : grid0.Coords) (arg2 : Memref sig .tc .vmem S64x64x1024 .f32) (harg2 : arg2.IsWhole) (arg3 : Memref sig .tc .vmem S16x64 .f32) (harg3 : arg3.IsWhole) (arg4 : Memref sig .tc .vmem S16 .f32) (harg4 : arg4.IsWhole) (arg5 : Memref sig .tc .vmem S64x16 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64x64 .f32) (harg8 : arg8.IsWhole) (hc0 : cond0_0 i) (hc1 : ¬cond0_1 i)
    (x0 : Vec F S64x64x1024 .f32) (x1 : Vec F S16x64 .f32) (x2 : Vec F S16 .f32) (x3 : Vec F S64x16 .f32) (x4 : Vec F S64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare (k0_pay2 (k0_pay1 (F := F)) x0)) -∗ K ⟨⟩))
      ⊢ wp frame (wpE (defs₀ (F := F)) Variants.none c none) E (cc0__pool_kernel i arg2 harg2 arg3 harg3 arg4 harg4 arg5 harg5 arg6 harg6 arg7 harg7 arg8 harg8) K := by
  simp only [cc0__pool_kernel_eq_skeleton]; unfold cc0__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, %hf7, H7⟩, ⟨%d8, %f8, %hf8, H8⟩, Hk⟩
  obtain rfl := harg2.eq_unread hf0; obtain rfl := harg3.eq_unread hf1; obtain rfl := harg4.eq_unread hf2; obtain rfl := harg5.eq_unread hf3; obtain rfl := harg6.eq_unread hf4
  -- Run the body: the first branch is taken, the second is not.
  sl_exec (disch := first | exact hc0 | exact hc1)
  sl_step
  iapply Hk
  -- The five inputs are only loaded from: each goes back at the contents it came with.
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  -- The output window's buffer is not stored into: it goes back as it came.
  isplitl [H7]
  · iexists _, _; isplitr; · ipureintro; exact hf7
    iexact H7
  -- The scratch took two whole-buffer stores, zeros and then the sum. The later store covers the buffer, so the
  -- buffer reads as its payload; inside that payload the scratch read back after the zeroing store reads zeros, and
  -- the load of the tile reads the tile.
  iexists _; isplitr; swap; · iexact H8
  ipureintro
  sl_unfold_words
  rw [View.read_writes_eq_canon _ _ _
      (fun y => ⟨_, List.mem_cons.mpr (Or.inl rfl), View.mem_set_unit_zero z2 inb_S64x64_S64x64_0_0 y⟩),
    View.canon_cons_unit_zero z2, View.readCov_unit_zero _ z2]
  simp only [View.readAt_eq_ld, harg2.read_unread, View.ld_unit_zero (S := S64x64x1024) z3]

set_option maxHeartbeats 1000000 in
/-- A middle tile: the scratch at `xs` ends at `xs` plus the tile's lane sums; the output window's buffer is not stored into. -/
theorem pool_run_B (c : Dev nD) (i : grid0.Coords) (arg2 : Memref sig .tc .vmem S64x64x1024 .f32) (harg2 : arg2.IsWhole) (arg3 : Memref sig .tc .vmem S16x64 .f32) (harg3 : arg3.IsWhole) (arg4 : Memref sig .tc .vmem S16 .f32) (harg4 : arg4.IsWhole) (arg5 : Memref sig .tc .vmem S64x16 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64x64 .f32) (harg8 : arg8.IsWhole) (hc0 : ¬cond0_0 i) (hc1 : ¬cond0_1 i)
    (x0 : Vec F S64x64x1024 .f32) (x1 : Vec F S16x64 .f32) (x2 : Vec F S16 .f32) (x3 : Vec F S64x16 .f32) (x4 : Vec F S64 .f32) (xs : Vec F S64x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare (k0_pay2 xs x0)) -∗ K ⟨⟩))
      ⊢ wp frame (wpE (defs₀ (F := F)) Variants.none c none) E (cc0__pool_kernel i arg2 harg2 arg3 harg3 arg4 harg4 arg5 harg5 arg6 harg6 arg7 harg7 arg8 harg8) K := by
  simp only [cc0__pool_kernel_eq_skeleton]; unfold cc0__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf8
  -- Run the body: neither branch is taken.
  sl_exec (disch := first | exact hc0 | exact hc1)
  sl_step
  iapply Hk
  -- The five inputs are only loaded from: each goes back at the contents it came with.
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  -- The output window's buffer is not stored into: it goes back as it came.
  isplitl [H7]
  · iexists _, _; isplitr; · ipureintro; exact hf7
    iexact H7
  -- The scratch took one whole-buffer store: it covers the buffer, so the buffer reads as its payload, in which the
  -- loads of the scratch and of the tile read their contents.
  iexists _; isplitr; swap; · iexact H8
  ipureintro
  rw [View.read_writes_eq_canon _ _ _ (fun y => ⟨_, List.mem_singleton_self _, View.mem_set_unit_zero z2 inb_S64x64_S64x64_0_0 y⟩),
    View.canon_unit_zero z2, View.readAt_eq_ld, View.readAt_eq_ld, harg8.read_unread, harg2.read_unread,
    View.ld_unit_zero z2, View.ld_unit_zero z3]

set_option maxHeartbeats 1000000 in
/-- The last tile (and not the first): the scratch at `xs` ends at `xs` plus the tile's lane sums, and the output
    window's buffer at the gate of that sum. -/
theorem pool_run_C (c : Dev nD) (i : grid0.Coords) (arg2 : Memref sig .tc .vmem S64x64x1024 .f32) (harg2 : arg2.IsWhole) (arg3 : Memref sig .tc .vmem S16x64 .f32) (harg3 : arg3.IsWhole) (arg4 : Memref sig .tc .vmem S16 .f32) (harg4 : arg4.IsWhole) (arg5 : Memref sig .tc .vmem S64x16 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64x64 .f32) (harg8 : arg8.IsWhole) (hc0 : ¬cond0_0 i) (hc1 : cond0_1 i)
    (x0 : Vec F S64x64x1024 .f32) (x1 : Vec F S16x64 .f32) (x2 : Vec F S16 .f32) (x3 : Vec F S64x16 .f32) (x4 : Vec F S64 .f32) (xs : Vec F S64x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay3 (k0_pay2 xs x0) x1 x2 x3 x4) ∗ owns (c : Thread nD τ) arg8 fullShare (k0_pay2 xs x0)) -∗ K ⟨⟩))
      ⊢ wp frame (wpE (defs₀ (F := F)) Variants.none c none) E (cc0__pool_kernel i arg2 harg2 arg3 harg3 arg4 harg4 arg5 harg5 arg6 harg6 arg7 harg7 arg8 harg8) K := by
  simp only [cc0__pool_kernel_eq_skeleton]; unfold cc0__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf8
  -- Run the body: the first branch is not taken, the second is.
  sl_exec (disch := first | exact hc0 | exact hc1)
  sl_step
  iapply Hk
  -- The five inputs are only loaded from: each goes back at the contents it came with.
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  -- The output window's buffer took one whole-buffer store, so it reads as that store's payload: the gate of the
  -- scratch read back after its own store (the sum) and of the four weight inputs at their contents.
  isplitl [H7]
  · iexists _; isplitr; swap; · iexact H7
    ipureintro
    rw [View.read_writes_eq_canon _ _ _ (fun y => ⟨_, List.mem_singleton_self _, View.mem_set_unit_zero z2 inb_S64x64_S64x64_0_0 y⟩), View.canon_unit_zero z2]
    sl_unfold_words
    rw [View.readCov_unit_zero _ z2]
    simp only [View.readAt_eq_ld, harg2.read_unread, harg3.read_unread, harg4.read_unread, harg5.read_unread,
      harg6.read_unread, harg8.read_unread, View.ld_unit_zero (S := S64x64) z2, View.ld_unit_zero (S := S64x64x1024) z3,
      View.ld_unit_zero (S := S16x64) z2, View.ld_unit_zero (S := S16) z1, View.ld_unit_zero (S := S64x16) z2,
      View.ld_unit_zero (S := S64) z1]
  -- The scratch took one whole-buffer store, of the sum.
  iexists _; isplitr; swap; · iexact H8
  ipureintro
  sl_unfold_words
  rw [View.read_writes_eq_canon _ _ _ (fun y => ⟨_, List.mem_singleton_self _, View.mem_set_unit_zero z2 inb_S64x64_S64x64_0_0 y⟩), View.canon_unit_zero z2]
  simp only [View.readAt_eq_ld, harg2.read_unread, harg3.read_unread, harg4.read_unread, harg5.read_unread,
      harg6.read_unread, harg8.read_unread, View.ld_unit_zero (S := S64x64) z2, View.ld_unit_zero (S := S64x64x1024) z3,
      View.ld_unit_zero (S := S16x64) z2, View.ld_unit_zero (S := S16) z1, View.ld_unit_zero (S := S64x16) z2,
      View.ld_unit_zero (S := S64) z1]

end Cert.Kernel.Hand

end
-- ==== Proof.Bits.Body0.lean ====
/- Region 0's body obligation: at every grid point, from the invariant and the windows' buffers as the pipeline hands
   them, the body runs to the invariant of the next point and the buffers the proof data names. By cases on the point:
   first tile of a row block, middle tile, last tile. -/
import proofs.«130802_j61168924230407_1_alg».proof.Proof.Bits.PoolRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is never fetched, and from the region's start or a write-back up to the next write-back every
    point is idle for it: at every point its buffer holds what nothing has filled. By induction on the point. -/
private theorem before0_5_aux (c : Dev nD) : ∀ (n : ℕ) (hn : n < cfg0.N) (d), (dat0 V c).before 5 ⟨n, hn⟩ d = d
  | 0, hn, d => (dat0 V c).before_out_reset 5 rfl ⟨0, hn⟩ (.inl rfl) d
  | n + 1, hn, d => by
    by_cases hfl : (cfg0.win 5).flush ⟨n, Nat.lt_of_succ_lt hn⟩ = true
    · exact (dat0 V c).before_out_reset 5 rfl ⟨n + 1, hn⟩ (.inr ⟨Nat.succ_ne_zero n, hfl⟩) d
    · have h15 : ¬cond0_1 (grid0.coords ⟨n, Nat.lt_of_succ_lt hn⟩) := fun h => hfl ((flush0_5 _).mpr ((hcond0_1 _).mp h))
      rw [(dat0 V c).before_of_pos 5 ⟨n + 1, hn⟩ (Nat.succ_ne_zero n) ((cfg0.win 5).fetch_out rfl _) d]
      show (if (cfg0.win 5).flush ⟨n, Nat.lt_of_succ_lt hn⟩ = true then d else (dat0 V c).left 5 ⟨n, Nat.lt_of_succ_lt hn⟩ d) = d
      rw [if_neg hfl]
      unfold Dat.left
      rw [idleAt0_5 _ h15]
      exact before0_5_aux c n _ d

private theorem before0_5 (c : Dev nD) (t : Fin cfg0.N) (d) : (dat0 V c).before 5 t d = d :=
  before0_5_aux V c t.val t.isLt d

/-- What the pipeline calls the body with at point `t`: the invariant, nothing owed, the six windows' buffers. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- What it must return. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. Every input's buffer holds its block and is handed back as it came. At the first tile of a
    row block the scratch, whatever it held (at the very first point the class invariant says no more; later its
    named contents are forgotten), ends at the tile's lane sums added to zero; at a later tile it is handed over at
    what the point before left and ends at that plus the tile's lane sums: in both cases the next point's invariant,
    the untouched scoped buffers and the generator register riding along. Away from the last tile the output window
    is idle and its buffer comes back at some contents; at the last tile it is left at the gate of the sums. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare (iblk0 V c 0 t) from by
    unfold Dat.leavesExact; rw [liveAt0_0 t, after0_0]]
  rw [show (dat0 V c).leavesExact 1 t = owns (c : Thread nD τ) (ms0_1 t) fullShare (iblk0 V c 1 t) from by
    unfold Dat.leavesExact; rw [liveAt0_1 t, after0_1]]
  rw [show (dat0 V c).leavesExact 2 t = owns (c : Thread nD τ) (ms0_2 t) fullShare (iblk0 V c 2 t) from by
    unfold Dat.leavesExact; rw [liveAt0_2 t, after0_2]]
  rw [show (dat0 V c).leavesExact 3 t = owns (c : Thread nD τ) (ms0_3 t) fullShare (iblk0 V c 3 t) from by
    unfold Dat.leavesExact; rw [liveAt0_3 t, after0_3]]
  rw [show (dat0 V c).leavesExact 4 t = owns (c : Thread nD τ) (ms0_4 t) fullShare (iblk0 V c 4 t) from by
    unfold Dat.leavesExact; rw [liveAt0_4 t, after0_4]]
  by_cases h0 : t.val % 16 = 0
  · by_cases h1 : t.val % 16 = 15
    · exfalso; omega
    · have hc0 : cond0_0 (grid0.coords t) := (hcond0_0 t).mpr h0
      have hc1 : ¬cond0_1 (grid0.coords t) := fun h => h1 ((hcond0_1 t).mp h)
      rw [Dat.leavesExact_idle (dat0 V c) 5 t (idleAt0_5 t hc1) (noFlush0_5 t hc1)]
      simp only [before0_5]
      rw [accAt0_reset V c t h0]
      by_cases hz : t.val = 0
      · rw [PhiS0_castSucc V c t, PhiS0_zero V c _ _ hz, PhiA0_eq]
        iintro ⟨⟨⟨HS, HR⟩, Hg⟩, Ho, ⟨%d0, H0⟩, ⟨%d1, H1⟩, ⟨%d2, H2⟩, ⟨%d3, H3⟩, ⟨%d4, H4⟩, H5⟩
        iapply (pool_run_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) (iblk0 V c 4 t) Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [PhiS0_castSucc V c t, PhiS0_pos V c _ _ hz]
        iintro ⟨⟨⟨HS, HR⟩, Hg⟩, Ho, ⟨%d0, H0⟩, ⟨%d1, H1⟩, ⟨%d2, H2⟩, ⟨%d3, H3⟩, ⟨%d4, H4⟩, H5⟩
        iapply (pool_run_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) (iblk0 V c 4 t) Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        isplitl [H4]; · iexact H4
        iexact H5
  · have hc0 : ¬cond0_0 (grid0.coords t) := fun h => h0 ((hcond0_0 t).mp h)
    have hz : t.val ≠ 0 := fun h => h0 (by rw [h])
    by_cases h1 : t.val % 16 = 15
    · have hc1 : cond0_1 (grid0.coords t) := (hcond0_1 t).mpr h1
      rw [show (dat0 V c).leavesExact 5 t = owns (c : Thread nD τ) (ms0_5 t) fullShare (sAt0 V c t) from by
        unfold Dat.leavesExact; rw [liveAt0_5 t hc1, after0_5]]
      unfold sAt0
      rw [accAt0_step V c t h0]
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩, H5⟩
      iapply (pool_run_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) (iblk0 V c 4 t) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond0_1 (grid0.coords t) := fun h => h1 ((hcond0_1 t).mp h)
      rw [Dat.leavesExact_idle (dat0 V c) 5 t (idleAt0_5 t hc1) (noFlush0_5 t hc1)]
      simp only [before0_5]
      rw [accAt0_step V c t h0]
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩, H5⟩
      iapply (pool_run_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) (iblk0 V c 4 t) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point: the windows conjoined one by one. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.RescaleRun.lean ====
/- The body of region 1 run once on whole staging memrefs: the tile of x and the gate's block at given contents
   (handed back unchanged), the output window's buffer left at the tile times the gate spread along the lanes. -/
import proofs.«130802_j61168924230407_1_alg».proof.Proof.Bits.Setup
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The all-zero offsets of a rank-3 and of a rank-2 rectangle, as constant functions. -/
private theorem off3_zero : (![0, 0, 0] : Fin S64x64x512.rank → ℕ) = fun _ => 0 := funext fun a => by fin_cases a <;> rfl
private theorem off2_zero : (![0, 0] : Fin S64x64.rank → ℕ) = fun _ => 0 := funext fun a => by fin_cases a <;> rfl

set_option maxHeartbeats 1000000 in
theorem rescale_run (c : Dev nD) (i : grid1.Coords) (arg2 : Memref sig .tc .vmem S64x64x512 .f32) (harg2 : arg2.IsWhole) (arg3 : Memref sig .tc .vmem S64x64 .f32) (harg3 : arg3.IsWhole) (arg4 : Memref sig .tc .vmem S64x64x512 .f32) (harg4 : arg4.IsWhole)
    (x0 : Vec F S64x64x512 .f32) (x1 : Vec F S64x64 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (k1_pay1 x0 x1)) -∗ K ⟨⟩))
      ⊢ wp frame (wpE (defs₀ (F := F)) Variants.none c none) E (cc1__rescale_kernel i arg2 harg2 arg3 harg3 arg4 harg4) K := by
  -- the printed body is two loads, a load of the output that nothing reads, and one store of the whole buffer
  simp only [cc1__rescale_kernel_eq_skeleton]; unfold cc1__rescale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store is through the whole buffer, so the buffer reads back as the stored product; each operand was
  -- loaded through the whole of its buffer, so it is that buffer's contents
  refine (View.read_writes_eq_canon _ _ _
    (View.cover_of_tiled [⟨_, _⟩] S64x64x512.size (by rfl))).trans ?_
  rw [View.canon_unit_zero off3_zero, View.readAt_eq_ld, View.readAt_eq_ld,
    View.ld_unit_zero off3_zero, View.ld_unit_zero off2_zero]

end Cert.Kernel.Hand

end
-- ==== Proof.Bits.Body1.lean ====
/- Region 1's body obligation: at every grid point the body multiplies the tile of x by the gate's block. -/
import proofs.«130802_j61168924230407_1_alg».proof.Proof.Bits.RescaleRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body of region 1 is called with at point `t`: the invariant, the core's debts, and each window's current
    staging buffer at what the pipeline left there. -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it returns: the same invariant and debts, the two inputs' buffers as they were, the output's at the product. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold the tile of x and the gate's block, so the run of the body on whole
    buffers applies; the invariant and the debts pass through untouched. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold oAt1
  iintro ⟨HΦ, Ho, ⟨%d0, H0⟩, ⟨%d1, H1⟩, ⟨%d2, H2⟩⟩
  iapply (rescale_run c (grid1.coords t) (ms1_0 t) (hs1_0 t) (ms1_1 t) (hs1_1 t) (ms1_2 t) (hs1_2 t)
    (iblk1 V c 0 t) (iblk1 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Run.lean ====
/- The launch: @main is the two kernel regions one after the other. Between them the core's unscoped buffers hold the
   launch contents with region 0's output array at what its write-backs leave; at the end also region 1's. Each region
   is entered from "every unscoped buffer at the boundary's contents, the generator register at some state, nothing
   owed", splits its windows' arrays out of those buffers and puts them back at their final contents. -/
import proofs.«130802_j61168924230407_1_alg».proof.Proof.Bits.Body0
import proofs.«130802_j61168924230407_1_alg».proof.Proof.Bits.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch (region 0's entry). -/
abbrev W0 : Dev nD → Valuation τ sig (Elt F) := fun c b => m ((c : Dev nD), b)
abbrev Vin0 : (c : Dev nD) → (b : Ref sig .tc) → Buf (Elt F) ((c : Thread nD τ).loc b) := fun c b => W0 m c b
/-- After region 0 (region 1's entry): its arrays at what the pipeline leaves, every other buffer as entered. -/
def W1 (c : Dev nD) : Valuation τ sig (Elt F) :=
  Pipeline.withArrays spec0 c (W0 m c) fun w => (dat0 (Vin0 m) c).arrAt w cfg0.N
abbrev Vin1 : (c : Dev nD) → (b : Ref sig .tc) → Buf (Elt F) ((c : Thread nD τ).loc b) := fun c b => W1 m c b
/-- After region 1 (the end). -/
def W2 (c : Dev nD) : Valuation τ sig (Elt F) :=
  Pipeline.withArrays spec1 c (W1 m c) fun w => (dat1 (Vin1 m) c).arrAt w cfg1.N

theorem Vin0_main_arg (c : Dev nD) (b : Ref sig .tc) : Vin0 m c b = m ((c : Thread nD τ).loc b) := rfl

/-! ## The boundaries' contents at a region's arrays and off them -/

/-- After region 0 each of its arrays holds what the pipeline leaves, -/
private theorem W1_arr (c : Dev nD) (w : Fin cfg0.W) :
    W1 m c (Proc.devRef .tc (Pipeline.arrRef spec0 w)) = (dat0 (Vin0 m) c).arrAt w cfg0.N := by
  unfold W1; exact Pipeline.withArrays_arr spec0 launch0.win.arr_inj c _ _ w
/-- and every other buffer what it held at launch. -/
private theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- After region 1 each of its arrays holds what the pipeline leaves, -/
private theorem W2_arr (c : Dev nD) (w : Fin cfg1.W) :
    W2 m c (Proc.devRef .tc (Pipeline.arrRef spec1 w)) = (dat1 (Vin1 m) c).arrAt w cfg1.N := by
  unfold W2; exact Pipeline.withArrays_arr spec1 launch1.win.arr_inj c _ _ w
/-- and every other buffer what it held when region 1 was entered. -/
private theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb

/-- An input window's array is never written: after region 0 it holds what it held at launch. -/
private theorem W1_in (c : Dev nD) (w : Fin cfg0.W) (hin : (cfg0.win w).isOut = false) :
    W1 m c (Proc.devRef .tc (Pipeline.arrRef spec0 w)) = Vin0 m c (Pipeline.arrRef spec0 w) :=
  (W1_arr m c w).trans (((dat0 (Vin0 m) c).arrAt_in w hin _).trans (A_eq0 (Vin0 m) c w))
/-- The same for region 1. -/
private theorem W2_in (c : Dev nD) (w : Fin cfg1.W) (hin : (cfg1.win w).isOut = false) :
    W2 m c (Proc.devRef .tc (Pipeline.arrRef spec1 w)) = Vin1 m c (Pipeline.arrRef spec1 w) :=
  (W2_arr m c w).trans (((dat1 (Vin1 m) c).arrAt_in w hin _).trans (A_eq1 (Vin1 m) c w))

/-- Region 1 finds x as launched and the gate as region 0 left it. -/
theorem Vin1_main_arg0 (c : Dev nD) : Vin1 m c main_arg0 = m ((c : Thread nD τ).loc main_arg0) :=
  W1_in m c 0 rfl
theorem Vin1_main_v0 (c : Dev nD) : Vin1 m c main_v0 = (dat0 (Vin0 m) c).arrAt 5 cfg0.N :=
  W1_arr m c 5

/-- The end: the two results at what the regions' write-backs leave, the arguments as launched. -/
theorem W2_main_v1 (c : Dev nD) : W2 m c (Proc.devRef .tc main_v1) = (dat1 (Vin1 m) c).arrAt 2 cfg1.N :=
  W2_arr m c 2
theorem W2_main_v0 (c : Dev nD) : W2 m c (Proc.devRef .tc main_v0) = (dat0 (Vin0 m) c).arrAt 5 cfg0.N :=
  (W2_in m c 1 rfl).trans (Vin1_main_v0 m c)
theorem W2_main_arg0 (c : Dev nD) : W2 m c (Proc.devRef .tc main_arg0) = m ((c : Thread nD τ).loc main_arg0) :=
  (W2_in m c 0 rfl).trans (Vin1_main_arg0 m c)
theorem W2_main_arg1 (c : Dev nD) : W2 m c (Proc.devRef .tc main_arg1) = m ((c : Thread nD τ).loc main_arg1) :=
  (W2_of_ne m c main_arg1 (by decide)).trans (W1_in m c 1 rfl)
theorem W2_main_arg2 (c : Dev nD) : W2 m c (Proc.devRef .tc main_arg2) = m ((c : Thread nD τ).loc main_arg2) :=
  (W2_of_ne m c main_arg2 (by decide)).trans (W1_in m c 2 rfl)
theorem W2_main_arg3 (c : Dev nD) : W2 m c (Proc.devRef .tc main_arg3) = m ((c : Thread nD τ).loc main_arg3) :=
  (W2_of_ne m c main_arg3 (by decide)).trans (W1_in m c 3 rfl)
theorem W2_main_arg4 (c : Dev nD) : W2 m c (Proc.devRef .tc main_arg4) = m ((c : Thread nD τ).loc main_arg4) :=
  (W2_of_ne m c main_arg4 (by decide)).trans (W1_in m c 4 rfl)

/-- At region 0's exit each of its arrays holds what the pipeline leaves and every other buffer what it held at entry. -/
private theorem hF0 (c : Dev nD) (w : Fin cfg0.W) : (dat0 (Vin0 m) c).arrAt w cfg0.N = Vin1 m c (Pipeline.arrRef spec0 w) :=
  (W1_arr m c w).symm
private theorem hrest0 (c : Dev nD) : ∀ b, b ∉ Finset.univ.image (Pipeline.arrRef spec0) → Vin1 m c b = Vin0 m c b :=
  fun b hb => W1_of_ne m c b fun w e => hb (Finset.mem_image.mpr ⟨w, Finset.mem_univ _, e⟩)
/-- The same at region 1's exit. -/
private theorem hF1 (c : Dev nD) (w : Fin cfg1.W) : (dat1 (Vin1 m) c).arrAt w cfg1.N = W2 m c (Proc.devRef .tc (Pipeline.arrRef spec1 w)) :=
  (W2_arr m c w).symm
private theorem hrest1 (c : Dev nD) : ∀ b, b ∉ Finset.univ.image (Pipeline.arrRef spec1) → W2 m c (Proc.devRef .tc b) = Vin1 m c b :=
  fun b hb => W2_of_ne m c b fun w e => hb (Finset.mem_image.mpr ⟨w, Finset.mem_univ _, e⟩)

/-! ## The proof data of both pipelines and the thread state -/

/-- No pipeline has a prefetched table. -/
private abbrev admR : (p : Fin 2) → (pcfgs (F := F) p).Adm := fun p => (cfgs p).toPCfg_adm
/-- Every pipeline's proof data, each at the contents its region is entered from. -/
private def pdats : (p : Fin 2) → (c : Dev nD) → Dat τ (Elt F) Unit ℕ (UR sig nD τ) ℕ (Pipeline.pin (pcfgs (F := F)) admR p) c
  | ⟨0, _⟩ => fun c => dat0 (Vin0 m) c
  | ⟨1, _⟩ => fun c => dat1 (Vin1 m) c
private abbrev 𝒱₀ : Variants := Variants.none
/-- No core owes another anything: no level is assigned. -/
private abbrev Lr : GSem nD τ sig → Finset Unit := fun _ => ∅
private abbrev lvr : GSem nD τ sig → Unit → ℕ := fun _ _ => 0
/-- What rides beside the buffers through both regions: the generator register at some state, and the core owing nothing. -/
private abbrev Rr (c : Dev nD) : sProp 𝕄 := iprop((∃ r, prngReg c r) ∗ ∃ W, owes (c : Thread nD τ) (0 : CellTallies nD τ sig Unit) W)
/-- An unscoped reference of the core is among those the thread state holds. -/
private theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the end's contents, the generator register. -/
private abbrev Tn (c : Dev nD) : sProp 𝕄 := iprop(StableHlo.held (c : Thread nD τ) (Pipeline.ucRefs τ sig) (W2 m c) ∗ ∃ r, prngReg c r)

/-- After its last point region 0's invariant gives the class's back: what the scratch holds is forgotten. -/
private theorem Phi_out0 (c : Dev nD) : (dat0 (Vin0 m) c).Φ (Fin.last cfg0.N) ⊢ Pipeline.ΦA spec0 c := by
  rw [show (dat0 (Vin0 m) c).Φ (Fin.last cfg0.N) = PhiS0 (Vin0 m) c (Fin.last cfg0.N).val (Nat.le_of_lt_succ (Fin.last cfg0.N).isLt) from rfl,
    PhiS0_pos (Vin0 m) c _ _ (by rw [Fin.val_last]; have : cfg0.N = 32 := N_0; omega), PhiA0_eq]
  iintro ⟨⟨HS, Hrest⟩, Hg⟩
  isplitl [HS Hrest]
  · isplitl [HS]
    · iexists _; iexact HS
    iexact Hrest
  iexact Hg

/-! ## The regions as segments -/

set_option backward.isDefEq.respectTransparency.types false in
/-- Region 0 over the thread state: entered from every unscoped buffer at the launch contents, left with its arrays at
    what the write-backs leave. Its arrays are split out of the unscoped buffers and put back at the exit contents; the
    generator register goes into the invariant and comes out; the scratch's last contents are forgotten. -/
private def reg0 : Pipeline.RegionSeg (pcfgs (F := F)) admR (pdats m) () defs₀ 𝒱₀ Lr lvr 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Lr lvr 0 fun _ _ => rfl
  pre c := iprop(StableHlo.held (c : Thread nD τ) (Pipeline.ucRefs τ sig) (W0 m c) ∗ Rr c)
  post c := iprop(StableHlo.held (c : Thread nD τ) (Pipeline.ucRefs τ sig) (W1 m c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) admR (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi_out0 m c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admR (Ix := Unit) (Name := ℕ) (U := UR sig nD τ) (Lvl := ℕ)
      launch0.win launch0.arr_whole c (pdats m) ((pdats m 0 c).share_full fun _ => rfl)
      (Vin0 m c) (Vin1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from what region 0 left, left with its arrays at what the write-backs leave
    (the end's contents). Its invariant is the class's throughout. -/
private def reg1 : Pipeline.RegionSeg (pcfgs (F := F)) admR (pdats m) () defs₀ 𝒱₀ Lr lvr 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ Lr lvr 1 fun _ _ => rfl
  pre c := iprop(StableHlo.held (c : Thread nD τ) (Pipeline.ucRefs τ sig) (W1 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) admR (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admR (Ix := Unit) (Name := ℕ) (U := UR sig nD τ) (Lvl := ℕ)
      launch1.win launch1.arr_whole c (pdats m) ((pdats m 1 c).share_full fun _ => rfl)
      (Vin1 m c) (fun b => W2 m c (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two regions, and the launch -/

private abbrev segs : List (Pipeline.Seg (pcfgs (F := F)) admR (pdats m) () defs₀ 𝒱₀ Lr lvr) :=
  [ .region (reg0 m), .region (reg1 m) ]
/-- @main is the run of the two regions. -/
private theorem main_run (c : Dev nD) : main (F := F) c = Pipeline.Seg.run (segs m) :=
  main_segs admR (pdats m) () 𝒱₀ Lr lvr (reg0 m) (reg1 m) c

set_option backward.isDefEq.respectTransparency.types false in
/-- Every weakly fair execution of @main terminates, and at the end every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) admR (pdats m) () cellOf_inj emb₁ defs₀ 𝒱₀ Lr lvr m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tn m)
    (hch := ⟨fun _ => .rfl, fun _ => .rfl, fun _ => .rfl⟩)
    (hinit := by
      refine Pipeline.initEach Lr lvr fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- The frame claim's post at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c)⟩) (run_all m ρ)

/-- The run with both results named. -/
theorem run_values : θ_run defs (onTc (τ := τ) (main (F := F))) ⟨m, fun _ => 0, ρ⟩ (fun r => ∀ c : Dev nD,
      r.2.mem ((c.tc : Thread nD τ).loc main_v1) = (dat1 (Vin1 m) c).arrAt 2 cfg1.N
      ∧ r.2.mem ((c.tc : Thread nD τ).loc main_v0) = (dat0 (Vin0 m) c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v1 (by decide))).trans (W2_main_v1 m c),
     (h c _ (mem_uc main_v0 (by decide))).trans (W2_main_v0 m c),
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c)⟩) (run_all m ρ)

end Cert.Kernel.Hand

end
-- ==== Proof.Ideal.Setup.lean ====
/- The two pallas_calls of the program, as data for the pipeline rule, at any float instance.
   Region 0 (grid 2 x 16) streams x in tiles of 1024 lanes: a scratch of shape [64, 64] is zeroed at the first tile of a
   row block, takes the tile's lane sums at every tile, and at the last tile the gate (mean, two small products, relu,
   logistic) is stored into the output window. Region 1 (grid 2 x 32) multiplies each tile of x by the gate's block.
   Here: each window's block at a grid point, the scratch's contents after each point by recursion on the point
   (`accAt0`), the invariant that carries it between points (`PhiS0`), and the proof data of both regions, stated at
   the contents `V` the core's buffers hold when the region is entered. -/
import proofs.«130802_j61168924230407_1_alg».proof.Proof.Gen.KernelIdeal.Launch
import proofs.«130802_j61168924230407_1_alg».proof.Proof.Gen.KernelIdeal.Skeleton
import proofs.«130802_j61168924230407_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: blocks, branch conditions, idle points -/

/-- Window `w`'s block at point `t` of region 0, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The five input blocks at their literal shapes: the tile of x, and the whole of w1, b1, w2, b2. -/
abbrev xblk0 (c : Dev nD) (t : Fin cfg0.N) : Vec F S64x64x1024 .f32 := iblk0 V c 0 t
abbrev w1blk0 (c : Dev nD) (t : Fin cfg0.N) : Vec F S16x64 .f32 := iblk0 V c 1 t
abbrev b1blk0 (c : Dev nD) (t : Fin cfg0.N) : Vec F S16 .f32 := iblk0 V c 2 t
abbrev w2blk0 (c : Dev nD) (t : Fin cfg0.N) : Vec F S64x16 .f32 := iblk0 V c 3 t
abbrev b2blk0 (c : Dev nD) (t : Fin cfg0.N) : Vec F S64 .f32 := iblk0 V c 4 t

/-- "This is the first tile of its row block": the body's first branch. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- "This is the last tile of its row block": the body's second branch. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last tile the output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-- The staging memrefs the pipeline passes the body at point `t`, and the scratch. -/
abbrev ms0_0 (t : Fin cfg0.N) : Memref sig .tc .vmem S64x64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x64 .f32 := win0_5.stage (cfg0.slots t 5)
abbrev hs0_5 (t : Fin cfg0.N) : (ms0_5 t).IsWhole := hstage0_5 ((cfg0.slots t 5).cast nbuf0_5)
abbrev scM0 : Memref sig .tc .vmem S64x64 .f32 := Memref.whole cc0_scratch0

/-- The scoped buffers region 0 never touches (region 1's staging buffers), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant of region 0 spelled out: the scratch at some contents, the untouched scoped buffers, the
    generator register at some state. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

/-! ## Region 0: what the scratch and the output window hold after each point -/

/-- The scratch after the body at point `n`: at the first tile of a row block the tile's lane sums added to zero,
    afterwards added to what the point before left. -/
def accAt0 (c : Dev nD) : (n : ℕ) → n < cfg0.N → Vec F S64x64 .f32
  | 0, hn => k0_pay2 (k0_pay1 (F := F)) (xblk0 V c ⟨0, hn⟩)
  | n + 1, hn =>
    if (n + 1) % 16 = 0 then k0_pay2 (k0_pay1 (F := F)) (xblk0 V c ⟨n + 1, hn⟩)
    else k0_pay2 (accAt0 c n (Nat.lt_of_succ_lt hn)) (xblk0 V c ⟨n + 1, hn⟩)

theorem accAt0_reset (c : Dev nD) (t : Fin cfg0.N) (h : t.val % 16 = 0) :
    accAt0 V c t.val t.isLt = k0_pay2 (k0_pay1 (F := F)) (xblk0 V c t) := by
  obtain ⟨n, hn⟩ := t
  cases n with
  | zero => rfl
  | succ n => exact if_pos h

theorem accAt0_step (c : Dev nD) (t : Fin cfg0.N) (h : ¬t.val % 16 = 0) :
    accAt0 V c t.val t.isLt = k0_pay2 (accAt0 V c (t.val - 1) (Nat.lt_of_le_of_lt (Nat.sub_le _ _) t.isLt)) (xblk0 V c t) := by
  obtain ⟨n, hn⟩ := t
  cases n with
  | zero => exact absurd (Nat.zero_mod _) h
  | succ n => exact if_neg h

/-- What the last tile's point stores into the output window: the gate of the accumulated sums. (At the other points
    the window is idle and this value is consulted by nothing.) -/
def sAt0 (c : Dev nD) (t : Fin cfg0.N) : Vec F S64x64 .f32 :=
  k0_pay3 (accAt0 V c t.val t.isLt) (w1blk0 V c t) (b1blk0 V c t) (w2blk0 V c t) (b2blk0 V c t)

/-- The invariant before point `n`: before the first point the class's; afterwards the scratch at what the point before
    left, the untouched scoped buffers, the generator register. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (accAt0 V c n hn) ∗ rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare (accAt0 V c (n - 1) (by omega)) ∗ rest0 (F := F) c) ∗ (∃ r, prngReg c r)) := by
  cases n with
  | zero => exact absurd rfl hz
  | succ n => rfl

/-- Region 0's proof data at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => sAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = sAt0 V c t := by dsimp only [dat0]

/-- An input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of x and the block of the gate at point `t` of region 1, at their literal shapes. -/
abbrev xblk1 (c : Dev nD) (t : Fin cfg1.N) : Vec F S64x64x512 .f32 := iblk1 V c 0 t
abbrev sblk1 (c : Dev nD) (t : Fin cfg1.N) : Vec F S64x64 .f32 := iblk1 V c 1 t

abbrev ms1_0 (t : Fin cfg1.N) : Memref sig .tc .vmem S64x64x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64x512 .f32 := win1_2.stage (cfg1.slots t 2)
abbrev hs1_2 (t : Fin cfg1.N) : (ms1_2 t).IsWhole := hstage1_2 ((cfg1.slots t 2).cast nbuf1_2)

/-- What the body of region 1 stores at point `t`: the tile of x times the gate's block spread along the lanes. -/
def oAt1 (c : Dev nD) (t : Fin cfg1.N) : Vec F S64x64x512 .f32 := k1_pay1 (xblk1 V c t) (sblk1 V c t)

/-- Region 1's proof data at the entry contents `V`: the class invariant, untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => oAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = oAt1 V c t := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

end Cert.KernelIdeal.Hand

end
-- ==== Proof.Ideal.PoolRun.lean ====
/- The body of region 0 run once, in each of its three control cases, on whole staging memrefs: the five inputs at
   given contents (handed back unchanged), the scratch and the output window's buffer as the case needs them. -/
import proofs.«130802_j61168924230407_1_alg».proof.Proof.Ideal.Setup
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of the whole-buffer rectangles, as constant functions. -/
private theorem z1 : (![0] : Fin 1 → ℕ) = fun _ => 0 := funext fun a => by fin_cases a <;> rfl
private theorem z2 : (![0, 0] : Fin 2 → ℕ) = fun _ => 0 := funext fun a => by fin_cases a <;> rfl
private theorem z3 : (![0, 0, 0] : Fin 3 → ℕ) = fun _ => 0 := funext fun a => by fin_cases a <;> rfl

set_option maxHeartbeats 1000000 in
/-- First tile of a row block (and not the last): whatever the scratch held, it ends at the tile's lane sums added to
    zero; the output window's buffer is not stored into. -/
theorem pool_run_A (c : Dev nD) (i : grid0.Coords) (arg2 : Memref sig .tc .vmem S64x64x1024 .f32) (harg2 : arg2.IsWhole) (arg3 : Memref sig .tc .vmem S16x64 .f32) (harg3 : arg3.IsWhole) (arg4 : Memref sig .tc .vmem S16 .f32) (harg4 : arg4.IsWhole) (arg5 : Memref sig .tc .vmem S64x16 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64x64 .f32) (harg8 : arg8.IsWhole) (hc0 : cond0_0 i) (hc1 : ¬cond0_1 i)
    (x0 : Vec F S64x64x1024 .f32) (x1 : Vec F S16x64 .f32) (x2 : Vec F S16 .f32) (x3 : Vec F S64x16 .f32) (x4 : Vec F S64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare (k0_pay2 (k0_pay1 (F := F)) x0)) -∗ K ⟨⟩))
      ⊢ wp frame (wpE (defs₀ (F := F)) Variants.none c none) E (cc0__pool_kernel i arg2 harg2 arg3 harg3 arg4 harg4 arg5 harg5 arg6 harg6 arg7 harg7 arg8 harg8) K := by
  simp only [cc0__pool_kernel_eq_skeleton]; unfold cc0__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, %hf7, H7⟩, ⟨%d8, %f8, %hf8, H8⟩, Hk⟩
  obtain rfl := harg2.eq_unread hf0; obtain rfl := harg3.eq_unread hf1; obtain rfl := harg4.eq_unread hf2; obtain rfl := harg5.eq_unread hf3; obtain rfl := harg6.eq_unread hf4
  -- Run the body: the first branch is taken, the second is not.
  sl_exec (disch := first | exact hc0 | exact hc1)
  sl_step
  iapply Hk
  -- The five inputs are only loaded from: each goes back at the contents it came with.
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  -- The output window's buffer is not stored into: it goes back as it came.
  isplitl [H7]
  · iexists _, _; isplitr; · ipureintro; exact hf7
    iexact H7
  -- The scratch took two whole-buffer stores, zeros and then the sum. The later store covers the buffer, so the
  -- buffer reads as its payload; inside that payload the scratch read back after the zeroing store reads zeros, and
  -- the load of the tile reads the tile.
  iexists _; isplitr; swap; · iexact H8
  ipureintro
  sl_unfold_words
  rw [View.read_writes_eq_canon _ _ _
      (fun y => ⟨_, List.mem_cons.mpr (Or.inl rfl), View.mem_set_unit_zero z2 inb_S64x64_S64x64_0_0 y⟩),
    View.canon_cons_unit_zero z2, View.readCov_unit_zero _ z2]
  simp only [View.readAt_eq_ld, harg2.read_unread, View.ld_unit_zero (S := S64x64x1024) z3]

set_option maxHeartbeats 1000000 in
/-- A middle tile: the scratch at `xs` ends at `xs` plus the tile's lane sums; the output window's buffer is not stored into. -/
theorem pool_run_B (c : Dev nD) (i : grid0.Coords) (arg2 : Memref sig .tc .vmem S64x64x1024 .f32) (harg2 : arg2.IsWhole) (arg3 : Memref sig .tc .vmem S16x64 .f32) (harg3 : arg3.IsWhole) (arg4 : Memref sig .tc .vmem S16 .f32) (harg4 : arg4.IsWhole) (arg5 : Memref sig .tc .vmem S64x16 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64x64 .f32) (harg8 : arg8.IsWhole) (hc0 : ¬cond0_0 i) (hc1 : ¬cond0_1 i)
    (x0 : Vec F S64x64x1024 .f32) (x1 : Vec F S16x64 .f32) (x2 : Vec F S16 .f32) (x3 : Vec F S64x16 .f32) (x4 : Vec F S64 .f32) (xs : Vec F S64x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare (k0_pay2 xs x0)) -∗ K ⟨⟩))
      ⊢ wp frame (wpE (defs₀ (F := F)) Variants.none c none) E (cc0__pool_kernel i arg2 harg2 arg3 harg3 arg4 harg4 arg5 harg5 arg6 harg6 arg7 harg7 arg8 harg8) K := by
  simp only [cc0__pool_kernel_eq_skeleton]; unfold cc0__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf8
  -- Run the body: neither branch is taken.
  sl_exec (disch := first | exact hc0 | exact hc1)
  sl_step
  iapply Hk
  -- The five inputs are only loaded from: each goes back at the contents it came with.
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  -- The output window's buffer is not stored into: it goes back as it came.
  isplitl [H7]
  · iexists _, _; isplitr; · ipureintro; exact hf7
    iexact H7
  -- The scratch took one whole-buffer store: it covers the buffer, so the buffer reads as its payload, in which the
  -- loads of the scratch and of the tile read their contents.
  iexists _; isplitr; swap; · iexact H8
  ipureintro
  rw [View.read_writes_eq_canon _ _ _ (fun y => ⟨_, List.mem_singleton_self _, View.mem_set_unit_zero z2 inb_S64x64_S64x64_0_0 y⟩),
    View.canon_unit_zero z2, View.readAt_eq_ld, View.readAt_eq_ld, harg8.read_unread, harg2.read_unread,
    View.ld_unit_zero z2, View.ld_unit_zero z3]

set_option maxHeartbeats 1000000 in
/-- The last tile (and not the first): the scratch at `xs` ends at `xs` plus the tile's lane sums, and the output
    window's buffer at the gate of that sum. -/
theorem pool_run_C (c : Dev nD) (i : grid0.Coords) (arg2 : Memref sig .tc .vmem S64x64x1024 .f32) (harg2 : arg2.IsWhole) (arg3 : Memref sig .tc .vmem S16x64 .f32) (harg3 : arg3.IsWhole) (arg4 : Memref sig .tc .vmem S16 .f32) (harg4 : arg4.IsWhole) (arg5 : Memref sig .tc .vmem S64x16 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64x64 .f32) (harg8 : arg8.IsWhole) (hc0 : ¬cond0_0 i) (hc1 : cond0_1 i)
    (x0 : Vec F S64x64x1024 .f32) (x1 : Vec F S16x64 .f32) (x2 : Vec F S16 .f32) (x3 : Vec F S64x16 .f32) (x4 : Vec F S64 .f32) (xs : Vec F S64x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay3 (k0_pay2 xs x0) x1 x2 x3 x4) ∗ owns (c : Thread nD τ) arg8 fullShare (k0_pay2 xs x0)) -∗ K ⟨⟩))
      ⊢ wp frame (wpE (defs₀ (F := F)) Variants.none c none) E (cc0__pool_kernel i arg2 harg2 arg3 harg3 arg4 harg4 arg5 harg5 arg6 harg6 arg7 harg7 arg8 harg8) K := by
  simp only [cc0__pool_kernel_eq_skeleton]; unfold cc0__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf8
  -- Run the body: the first branch is not taken, the second is.
  sl_exec (disch := first | exact hc0 | exact hc1)
  sl_step
  iapply Hk
  -- The five inputs are only loaded from: each goes back at the contents it came with.
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  -- The output window's buffer took one whole-buffer store, so it reads as that store's payload: the gate of the
  -- scratch read back after its own store (the sum) and of the four weight inputs at their contents.
  isplitl [H7]
  · iexists _; isplitr; swap; · iexact H7
    ipureintro
    rw [View.read_writes_eq_canon _ _ _ (fun y => ⟨_, List.mem_singleton_self _, View.mem_set_unit_zero z2 inb_S64x64_S64x64_0_0 y⟩), View.canon_unit_zero z2]
    sl_unfold_words
    rw [View.readCov_unit_zero _ z2]
    simp only [View.readAt_eq_ld, harg2.read_unread, harg3.read_unread, harg4.read_unread, harg5.read_unread,
      harg6.read_unread, harg8.read_unread, View.ld_unit_zero (S := S64x64) z2, View.ld_unit_zero (S := S64x64x1024) z3,
      View.ld_unit_zero (S := S16x64) z2, View.ld_unit_zero (S := S16) z1, View.ld_unit_zero (S := S64x16) z2,
      View.ld_unit_zero (S := S64) z1]
  -- The scratch took one whole-buffer store, of the sum.
  iexists _; isplitr; swap; · iexact H8
  ipureintro
  sl_unfold_words
  rw [View.read_writes_eq_canon _ _ _ (fun y => ⟨_, List.mem_singleton_self _, View.mem_set_unit_zero z2 inb_S64x64_S64x64_0_0 y⟩), View.canon_unit_zero z2]
  simp only [View.readAt_eq_ld, harg2.read_unread, harg3.read_unread, harg4.read_unread, harg5.read_unread,
      harg6.read_unread, harg8.read_unread, View.ld_unit_zero (S := S64x64) z2, View.ld_unit_zero (S := S64x64x1024) z3,
      View.ld_unit_zero (S := S16x64) z2, View.ld_unit_zero (S := S16) z1, View.ld_unit_zero (S := S64x16) z2,
      View.ld_unit_zero (S := S64) z1]

end Cert.KernelIdeal.Hand

end
-- ==== Proof.Ideal.Body0.lean ====
/- Region 0's body obligation: at every grid point, from the invariant and the windows' buffers as the pipeline hands
   them, the body runs to the invariant of the next point and the buffers the proof data names. By cases on the point:
   first tile of a row block, middle tile, last tile. -/
import proofs.«130802_j61168924230407_1_alg».proof.Proof.Ideal.PoolRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output window is never fetched, and from the region's start or a write-back up to the next write-back every
    point is idle for it: at every point its buffer holds what nothing has filled. By induction on the point. -/
private theorem before0_5_aux (c : Dev nD) : ∀ (n : ℕ) (hn : n < cfg0.N) (d), (dat0 V c).before 5 ⟨n, hn⟩ d = d
  | 0, hn, d => (dat0 V c).before_out_reset 5 rfl ⟨0, hn⟩ (.inl rfl) d
  | n + 1, hn, d => by
    by_cases hfl : (cfg0.win 5).flush ⟨n, Nat.lt_of_succ_lt hn⟩ = true
    · exact (dat0 V c).before_out_reset 5 rfl ⟨n + 1, hn⟩ (.inr ⟨Nat.succ_ne_zero n, hfl⟩) d
    · have h15 : ¬cond0_1 (grid0.coords ⟨n, Nat.lt_of_succ_lt hn⟩) := fun h => hfl ((flush0_5 _).mpr ((hcond0_1 _).mp h))
      rw [(dat0 V c).before_of_pos 5 ⟨n + 1, hn⟩ (Nat.succ_ne_zero n) ((cfg0.win 5).fetch_out rfl _) d]
      show (if (cfg0.win 5).flush ⟨n, Nat.lt_of_succ_lt hn⟩ = true then d else (dat0 V c).left 5 ⟨n, Nat.lt_of_succ_lt hn⟩ d) = d
      rw [if_neg hfl]
      unfold Dat.left
      rw [idleAt0_5 _ h15]
      exact before0_5_aux c n _ d

private theorem before0_5 (c : Dev nD) (t : Fin cfg0.N) (d) : (dat0 V c).before 5 t d = d :=
  before0_5_aux V c t.val t.isLt d

/-- What the pipeline calls the body with at point `t`: the invariant, nothing owed, the six windows' buffers. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- What it must return. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. Every input's buffer holds its block and is handed back as it came. At the first tile of a
    row block the scratch, whatever it held (at the very first point the class invariant says no more; later its
    named contents are forgotten), ends at the tile's lane sums added to zero; at a later tile it is handed over at
    what the point before left and ends at that plus the tile's lane sums: in both cases the next point's invariant,
    the untouched scoped buffers and the generator register riding along. Away from the last tile the output window
    is idle and its buffer comes back at some contents; at the last tile it is left at the gate of the sums. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare (iblk0 V c 0 t) from by
    unfold Dat.leavesExact; rw [liveAt0_0 t, after0_0]]
  rw [show (dat0 V c).leavesExact 1 t = owns (c : Thread nD τ) (ms0_1 t) fullShare (iblk0 V c 1 t) from by
    unfold Dat.leavesExact; rw [liveAt0_1 t, after0_1]]
  rw [show (dat0 V c).leavesExact 2 t = owns (c : Thread nD τ) (ms0_2 t) fullShare (iblk0 V c 2 t) from by
    unfold Dat.leavesExact; rw [liveAt0_2 t, after0_2]]
  rw [show (dat0 V c).leavesExact 3 t = owns (c : Thread nD τ) (ms0_3 t) fullShare (iblk0 V c 3 t) from by
    unfold Dat.leavesExact; rw [liveAt0_3 t, after0_3]]
  rw [show (dat0 V c).leavesExact 4 t = owns (c : Thread nD τ) (ms0_4 t) fullShare (iblk0 V c 4 t) from by
    unfold Dat.leavesExact; rw [liveAt0_4 t, after0_4]]
  by_cases h0 : t.val % 16 = 0
  · by_cases h1 : t.val % 16 = 15
    · exfalso; omega
    · have hc0 : cond0_0 (grid0.coords t) := (hcond0_0 t).mpr h0
      have hc1 : ¬cond0_1 (grid0.coords t) := fun h => h1 ((hcond0_1 t).mp h)
      rw [Dat.leavesExact_idle (dat0 V c) 5 t (idleAt0_5 t hc1) (noFlush0_5 t hc1)]
      simp only [before0_5]
      rw [accAt0_reset V c t h0]
      by_cases hz : t.val = 0
      · rw [PhiS0_castSucc V c t, PhiS0_zero V c _ _ hz, PhiA0_eq]
        iintro ⟨⟨⟨HS, HR⟩, Hg⟩, Ho, ⟨%d0, H0⟩, ⟨%d1, H1⟩, ⟨%d2, H2⟩, ⟨%d3, H3⟩, ⟨%d4, H4⟩, H5⟩
        iapply (pool_run_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) (iblk0 V c 4 t) Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [PhiS0_castSucc V c t, PhiS0_pos V c _ _ hz]
        iintro ⟨⟨⟨HS, HR⟩, Hg⟩, Ho, ⟨%d0, H0⟩, ⟨%d1, H1⟩, ⟨%d2, H2⟩, ⟨%d3, H3⟩, ⟨%d4, H4⟩, H5⟩
        iapply (pool_run_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) (iblk0 V c 4 t) Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        isplitl [H4]; · iexact H4
        iexact H5
  · have hc0 : ¬cond0_0 (grid0.coords t) := fun h => h0 ((hcond0_0 t).mp h)
    have hz : t.val ≠ 0 := fun h => h0 (by rw [h])
    by_cases h1 : t.val % 16 = 15
    · have hc1 : cond0_1 (grid0.coords t) := (hcond0_1 t).mpr h1
      rw [show (dat0 V c).leavesExact 5 t = owns (c : Thread nD τ) (ms0_5 t) fullShare (sAt0 V c t) from by
        unfold Dat.leavesExact; rw [liveAt0_5 t hc1, after0_5]]
      unfold sAt0
      rw [accAt0_step V c t h0]
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩, H5⟩
      iapply (pool_run_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) (iblk0 V c 4 t) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond0_1 (grid0.coords t) := fun h => h1 ((hcond0_1 t).mp h)
      rw [Dat.leavesExact_idle (dat0 V c) 5 t (idleAt0_5 t hc1) (noFlush0_5 t hc1)]
      simp only [before0_5]
      rw [accAt0_step V c t h0]
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩, H5⟩
      iapply (pool_run_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) (iblk0 V c 4 t) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point: the windows conjoined one by one. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Ideal.RescaleRun.lean ====
/- The body of region 1 run once on whole staging memrefs: the tile of x and the gate's block at given contents
   (handed back unchanged), the output window's buffer left at the tile times the gate spread along the lanes. -/
import proofs.«130802_j61168924230407_1_alg».proof.Proof.Ideal.Setup
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The all-zero offsets of a rank-3 and of a rank-2 rectangle, as constant functions. -/
private theorem off3_zero : (![0, 0, 0] : Fin S64x64x512.rank → ℕ) = fun _ => 0 := funext fun a => by fin_cases a <;> rfl
private theorem off2_zero : (![0, 0] : Fin S64x64.rank → ℕ) = fun _ => 0 := funext fun a => by fin_cases a <;> rfl

set_option maxHeartbeats 1000000 in
theorem rescale_run (c : Dev nD) (i : grid1.Coords) (arg2 : Memref sig .tc .vmem S64x64x512 .f32) (harg2 : arg2.IsWhole) (arg3 : Memref sig .tc .vmem S64x64 .f32) (harg3 : arg3.IsWhole) (arg4 : Memref sig .tc .vmem S64x64x512 .f32) (harg4 : arg4.IsWhole)
    (x0 : Vec F S64x64x512 .f32) (x1 : Vec F S64x64 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (k1_pay1 x0 x1)) -∗ K ⟨⟩))
      ⊢ wp frame (wpE (defs₀ (F := F)) Variants.none c none) E (cc1__rescale_kernel i arg2 harg2 arg3 harg3 arg4 harg4) K := by
  -- the printed body is two loads, a load of the output that nothing reads, and one store of the whole buffer
  simp only [cc1__rescale_kernel_eq_skeleton]; unfold cc1__rescale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store is through the whole buffer, so the buffer reads back as the stored product; each operand was
  -- loaded through the whole of its buffer, so it is that buffer's contents
  refine (View.read_writes_eq_canon _ _ _
    (View.cover_of_tiled [⟨_, _⟩] S64x64x512.size (by rfl))).trans ?_
  rw [View.canon_unit_zero off3_zero, View.readAt_eq_ld, View.readAt_eq_ld,
    View.ld_unit_zero off3_zero, View.ld_unit_zero off2_zero]

end Cert.KernelIdeal.Hand

end
-- ==== Proof.Ideal.Body1.lean ====
/- Region 1's body obligation: at every grid point the body multiplies the tile of x by the gate's block. -/
import proofs.«130802_j61168924230407_1_alg».proof.Proof.Ideal.RescaleRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body of region 1 is called with at point `t`: the invariant, the core's debts, and each window's current
    staging buffer at what the pipeline left there. -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it returns: the same invariant and debts, the two inputs' buffers as they were, the output's at the product. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold the tile of x and the gate's block, so the run of the body on whole
    buffers applies; the invariant and the debts pass through untouched. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold oAt1
  iintro ⟨HΦ, Ho, ⟨%d0, H0⟩, ⟨%d1, H1⟩, ⟨%d2, H2⟩⟩
  iapply (rescale_run c (grid1.coords t) (ms1_0 t) (hs1_0 t) (ms1_1 t) (hs1_1 t) (ms1_2 t) (hs1_2 t)
    (iblk1 V c 0 t) (iblk1 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Ideal.Run.lean ====
/- The launch: @main is the two kernel regions one after the other. Between them the core's unscoped buffers hold the
   launch contents with region 0's output array at what its write-backs leave; at the end also region 1's. Each region
   is entered from "every unscoped buffer at the boundary's contents, the generator register at some state, nothing
   owed", splits its windows' arrays out of those buffers and puts them back at their final contents. -/
import proofs.«130802_j61168924230407_1_alg».proof.Proof.Ideal.Body0
import proofs.«130802_j61168924230407_1_alg».proof.Proof.Ideal.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch (region 0's entry). -/
abbrev W0 : Dev nD → Valuation τ sig (Elt F) := fun c b => m ((c : Dev nD), b)
abbrev Vin0 : (c : Dev nD) → (b : Ref sig .tc) → Buf (Elt F) ((c : Thread nD τ).loc b) := fun c b => W0 m c b
/-- After region 0 (region 1's entry): its arrays at what the pipeline leaves, every other buffer as entered. -/
def W1 (c : Dev nD) : Valuation τ sig (Elt F) :=
  Pipeline.withArrays spec0 c (W0 m c) fun w => (dat0 (Vin0 m) c).arrAt w cfg0.N
abbrev Vin1 : (c : Dev nD) → (b : Ref sig .tc) → Buf (Elt F) ((c : Thread nD τ).loc b) := fun c b => W1 m c b
/-- After region 1 (the end). -/
def W2 (c : Dev nD) : Valuation τ sig (Elt F) :=
  Pipeline.withArrays spec1 c (W1 m c) fun w => (dat1 (Vin1 m) c).arrAt w cfg1.N

theorem Vin0_main_arg (c : Dev nD) (b : Ref sig .tc) : Vin0 m c b = m ((c : Thread nD τ).loc b) := rfl

/-! ## The boundaries' contents at a region's arrays and off them -/

/-- After region 0 each of its arrays holds what the pipeline leaves, -/
private theorem W1_arr (c : Dev nD) (w : Fin cfg0.W) :
    W1 m c (Proc.devRef .tc (Pipeline.arrRef spec0 w)) = (dat0 (Vin0 m) c).arrAt w cfg0.N := by
  unfold W1; exact Pipeline.withArrays_arr spec0 launch0.win.arr_inj c _ _ w
/-- and every other buffer what it held at launch. -/
private theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- After region 1 each of its arrays holds what the pipeline leaves, -/
private theorem W2_arr (c : Dev nD) (w : Fin cfg1.W) :
    W2 m c (Proc.devRef .tc (Pipeline.arrRef spec1 w)) = (dat1 (Vin1 m) c).arrAt w cfg1.N := by
  unfold W2; exact Pipeline.withArrays_arr spec1 launch1.win.arr_inj c _ _ w
/-- and every other buffer what it held when region 1 was entered. -/
private theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb

/-- An input window's array is never written: after region 0 it holds what it held at launch. -/
private theorem W1_in (c : Dev nD) (w : Fin cfg0.W) (hin : (cfg0.win w).isOut = false) :
    W1 m c (Proc.devRef .tc (Pipeline.arrRef spec0 w)) = Vin0 m c (Pipeline.arrRef spec0 w) :=
  (W1_arr m c w).trans (((dat0 (Vin0 m) c).arrAt_in w hin _).trans (A_eq0 (Vin0 m) c w))
/-- The same for region 1. -/
private theorem W2_in (c : Dev nD) (w : Fin cfg1.W) (hin : (cfg1.win w).isOut = false) :
    W2 m c (Proc.devRef .tc (Pipeline.arrRef spec1 w)) = Vin1 m c (Pipeline.arrRef spec1 w) :=
  (W2_arr m c w).trans (((dat1 (Vin1 m) c).arrAt_in w hin _).trans (A_eq1 (Vin1 m) c w))

/-- Region 1 finds x as launched and the gate as region 0 left it. -/
theorem Vin1_main_arg0 (c : Dev nD) : Vin1 m c main_arg0 = m ((c : Thread nD τ).loc main_arg0) :=
  W1_in m c 0 rfl
theorem Vin1_main_v0 (c : Dev nD) : Vin1 m c main_v0 = (dat0 (Vin0 m) c).arrAt 5 cfg0.N :=
  W1_arr m c 5

/-- The end: the two results at what the regions' write-backs leave, the arguments as launched. -/
theorem W2_main_v1 (c : Dev nD) : W2 m c (Proc.devRef .tc main_v1) = (dat1 (Vin1 m) c).arrAt 2 cfg1.N :=
  W2_arr m c 2
theorem W2_main_v0 (c : Dev nD) : W2 m c (Proc.devRef .tc main_v0) = (dat0 (Vin0 m) c).arrAt 5 cfg0.N :=
  (W2_in m c 1 rfl).trans (Vin1_main_v0 m c)
theorem W2_main_arg0 (c : Dev nD) : W2 m c (Proc.devRef .tc main_arg0) = m ((c : Thread nD τ).loc main_arg0) :=
  (W2_in m c 0 rfl).trans (Vin1_main_arg0 m c)
theorem W2_main_arg1 (c : Dev nD) : W2 m c (Proc.devRef .tc main_arg1) = m ((c : Thread nD τ).loc main_arg1) :=
  (W2_of_ne m c main_arg1 (by decide)).trans (W1_in m c 1 rfl)
theorem W2_main_arg2 (c : Dev nD) : W2 m c (Proc.devRef .tc main_arg2) = m ((c : Thread nD τ).loc main_arg2) :=
  (W2_of_ne m c main_arg2 (by decide)).trans (W1_in m c 2 rfl)
theorem W2_main_arg3 (c : Dev nD) : W2 m c (Proc.devRef .tc main_arg3) = m ((c : Thread nD τ).loc main_arg3) :=
  (W2_of_ne m c main_arg3 (by decide)).trans (W1_in m c 3 rfl)
theorem W2_main_arg4 (c : Dev nD) : W2 m c (Proc.devRef .tc main_arg4) = m ((c : Thread nD τ).loc main_arg4) :=
  (W2_of_ne m c main_arg4 (by decide)).trans (W1_in m c 4 rfl)

/-- At region 0's exit each of its arrays holds what the pipeline leaves and every other buffer what it held at entry. -/
private theorem hF0 (c : Dev nD) (w : Fin cfg0.W) : (dat0 (Vin0 m) c).arrAt w cfg0.N = Vin1 m c (Pipeline.arrRef spec0 w) :=
  (W1_arr m c w).symm
private theorem hrest0 (c : Dev nD) : ∀ b, b ∉ Finset.univ.image (Pipeline.arrRef spec0) → Vin1 m c b = Vin0 m c b :=
  fun b hb => W1_of_ne m c b fun w e => hb (Finset.mem_image.mpr ⟨w, Finset.mem_univ _, e⟩)
/-- The same at region 1's exit. -/
private theorem hF1 (c : Dev nD) (w : Fin cfg1.W) : (dat1 (Vin1 m) c).arrAt w cfg1.N = W2 m c (Proc.devRef .tc (Pipeline.arrRef spec1 w)) :=
  (W2_arr m c w).symm
private theorem hrest1 (c : Dev nD) : ∀ b, b ∉ Finset.univ.image (Pipeline.arrRef spec1) → W2 m c (Proc.devRef .tc b) = Vin1 m c b :=
  fun b hb => W2_of_ne m c b fun w e => hb (Finset.mem_image.mpr ⟨w, Finset.mem_univ _, e⟩)

/-! ## The proof data of both pipelines and the thread state -/

/-- No pipeline has a prefetched table. -/
private abbrev admR : (p : Fin 2) → (pcfgs (F := F) p).Adm := fun p => (cfgs p).toPCfg_adm
/-- Every pipeline's proof data, each at the contents its region is entered from. -/
private def pdats : (p : Fin 2) → (c : Dev nD) → Dat τ (Elt F) Unit ℕ (UR sig nD τ) ℕ (Pipeline.pin (pcfgs (F := F)) admR p) c
  | ⟨0, _⟩ => fun c => dat0 (Vin0 m) c
  | ⟨1, _⟩ => fun c => dat1 (Vin1 m) c
private abbrev 𝒱₀ : Variants := Variants.none
/-- No core owes another anything: no level is assigned. -/
private abbrev Lr : GSem nD τ sig → Finset Unit := fun _ => ∅
private abbrev lvr : GSem nD τ sig → Unit → ℕ := fun _ _ => 0
/-- What rides beside the buffers through both regions: the generator register at some state, and the core owing nothing. -/
private abbrev Rr (c : Dev nD) : sProp 𝕄 := iprop((∃ r, prngReg c r) ∗ ∃ W, owes (c : Thread nD τ) (0 : CellTallies nD τ sig Unit) W)
/-- An unscoped reference of the core is among those the thread state holds. -/
private theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the end's contents, the generator register. -/
private abbrev Tn (c : Dev nD) : sProp 𝕄 := iprop(StableHlo.held (c : Thread nD τ) (Pipeline.ucRefs τ sig) (W2 m c) ∗ ∃ r, prngReg c r)

/-- After its last point region 0's invariant gives the class's back: what the scratch holds is forgotten. -/
private theorem Phi_out0 (c : Dev nD) : (dat0 (Vin0 m) c).Φ (Fin.last cfg0.N) ⊢ Pipeline.ΦA spec0 c := by
  rw [show (dat0 (Vin0 m) c).Φ (Fin.last cfg0.N) = PhiS0 (Vin0 m) c (Fin.last cfg0.N).val (Nat.le_of_lt_succ (Fin.last cfg0.N).isLt) from rfl,
    PhiS0_pos (Vin0 m) c _ _ (by rw [Fin.val_last]; have : cfg0.N = 32 := N_0; omega), PhiA0_eq]
  iintro ⟨⟨HS, Hrest⟩, Hg⟩
  isplitl [HS Hrest]
  · isplitl [HS]
    · iexists _; iexact HS
    iexact Hrest
  iexact Hg

/-! ## The regions as segments -/

set_option backward.isDefEq.respectTransparency.types false in
/-- Region 0 over the thread state: entered from every unscoped buffer at the launch contents, left with its arrays at
    what the write-backs leave. Its arrays are split out of the unscoped buffers and put back at the exit contents; the
    generator register goes into the invariant and comes out; the scratch's last contents are forgotten. -/
private def reg0 : Pipeline.RegionSeg (pcfgs (F := F)) admR (pdats m) () defs₀ 𝒱₀ Lr lvr 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Lr lvr 0 fun _ _ => rfl
  pre c := iprop(StableHlo.held (c : Thread nD τ) (Pipeline.ucRefs τ sig) (W0 m c) ∗ Rr c)
  post c := iprop(StableHlo.held (c : Thread nD τ) (Pipeline.ucRefs τ sig) (W1 m c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) admR (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi_out0 m c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admR (Ix := Unit) (Name := ℕ) (U := UR sig nD τ) (Lvl := ℕ)
      launch0.win launch0.arr_whole c (pdats m) ((pdats m 0 c).share_full fun _ => rfl)
      (Vin0 m c) (Vin1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from what region 0 left, left with its arrays at what the write-backs leave
    (the end's contents). Its invariant is the class's throughout. -/
private def reg1 : Pipeline.RegionSeg (pcfgs (F := F)) admR (pdats m) () defs₀ 𝒱₀ Lr lvr 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ Lr lvr 1 fun _ _ => rfl
  pre c := iprop(StableHlo.held (c : Thread nD τ) (Pipeline.ucRefs τ sig) (W1 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) admR (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admR (Ix := Unit) (Name := ℕ) (U := UR sig nD τ) (Lvl := ℕ)
      launch1.win launch1.arr_whole c (pdats m) ((pdats m 1 c).share_full fun _ => rfl)
      (Vin1 m c) (fun b => W2 m c (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two regions, and the launch -/

private abbrev segs : List (Pipeline.Seg (pcfgs (F := F)) admR (pdats m) () defs₀ 𝒱₀ Lr lvr) :=
  [ .region (reg0 m), .region (reg1 m) ]
/-- @main is the run of the two regions. -/
private theorem main_run (c : Dev nD) : main (F := F) c = Pipeline.Seg.run (segs m) :=
  main_segs admR (pdats m) () 𝒱₀ Lr lvr (reg0 m) (reg1 m) c

set_option backward.isDefEq.respectTransparency.types false in
/-- Every weakly fair execution of @main terminates, and at the end every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) admR (pdats m) () cellOf_inj emb₁ defs₀ 𝒱₀ Lr lvr m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tn m)
    (hch := ⟨fun _ => .rfl, fun _ => .rfl, fun _ => .rfl⟩)
    (hinit := by
      refine Pipeline.initEach Lr lvr fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- The frame claim's post at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c)⟩) (run_all m ρ)

/-- The run with both results named. -/
theorem run_values : θ_run defs (onTc (τ := τ) (main (F := F))) ⟨m, fun _ => 0, ρ⟩ (fun r => ∀ c : Dev nD,
      r.2.mem ((c.tc : Thread nD τ).loc main_v1) = (dat1 (Vin1 m) c).arrAt 2 cfg1.N
      ∧ r.2.mem ((c.tc : Thread nD τ).loc main_v0) = (dat0 (Vin0 m) c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v1 (by decide))).trans (W2_main_v1 m c),
     (h c _ (mem_uc main_v0 (by decide))).trans (W2_main_v0 m c),
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c)⟩) (run_all m ρ)

end Cert.KernelIdeal.Hand

end
-- ==== Proof.Spec.lean ====
/- The mathematics both programs compute, over arrays of extended reals, index by index.
   For x of shape [128, 64, 16384], w1 [16, 64], b1 [16], w2 [64, 16], b2 [64]:
     pooled b c  = the sum of x (b, c, t) over the 16384 positions t,
     mean b c    = pooled b c divided by 16384,
     hidden b r  = max (the sum over c of mean b c * w1 (r, c), plus b1 r) 0,
     gateAt b c  = logistic (the sum over r of hidden b r * w2 (c, r), plus b2 c),
   and the two results are the gate [128, 64] and x scaled by it, x (b, c, t) * gateAt b c. The float words (16384 and 0)
   are kept as the words the programs print. -/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![128, 64, 16384]⟩
abbrev SW1 : Shape := ⟨2, ![16, 64]⟩
abbrev SB1 : Shape := ⟨1, ![16]⟩
abbrev SW2 : Shape := ⟨2, ![64, 16]⟩
abbrev SB2 : Shape := ⟨1, ![64]⟩
abbrev SS : Shape := ⟨2, ![128, 64]⟩

variable (x : SX.Idx → EReal) (w1 : SW1.Idx → EReal) (b1 : SB1.Idx → EReal) (w2 : SW2.Idx → EReal) (b2 : SB2.Idx → EReal)

/-- The sum of row (b, c) of x over all 16384 positions. -/
def pooled (b : Fin 128) (c : Fin 64) : EReal := ∑ t : Fin 16384, x (ix3 b c t)
/-- Its mean: the sum divided by 16384 (the word 0x46800000). -/
def mean (b : Fin 128) (c : Fin 64) : EReal := Ideal.div (pooled x b c) (Ideal.ofBits .f32 0x46800000#32)
/-- The first layer: relu of the means against w1's rows, plus b1. -/
def hidden (b : Fin 128) (r : Fin 16) : EReal :=
  max ((∑ c : Fin 64, mean x b c * w1 (ix2 r c)) + b1 (ix1 r)) (Ideal.ofBits .f32 0x00000000#32)
/-- The second layer and the logistic: the gate of row block b, channel c. -/
def gateAt (b : Fin 128) (c : Fin 64) : EReal :=
  Ideal.logistic ((∑ r : Fin 16, hidden x w1 b1 b r * w2 (ix2 c r)) + b2 (ix1 c))

/-- The gate as an array [128, 64]. -/
def gate : SS.Idx → EReal := fun i => gateAt x w1 b1 w2 b2 (i 0) (i 1)
/-- x scaled by the gate, [128, 64, 16384]. -/
def scaled : SX.Idx → EReal := fun i => x i * gateAt x w1 b1 w2 b2 (i 0) (i 1)

/-- An array [128, 64, 16384] scaled, along its last axis, by an array [128, 64]. -/
def scaleBy (x : SX.Idx → EReal) (s : SS.Idx → EReal) : SX.Idx → EReal := fun i => x i * s (ix2 (i 0) (i 1))
theorem scaleBy_ix (x : SX.Idx → EReal) (s : SS.Idx → EReal) (b : Fin 128) (c : Fin 64) (t : Fin 16384) :
    scaleBy x s (ix3 b c t) = x (ix3 b c t) * s (ix2 b c) := rfl
/-- The second result is the first argument scaled by the first result. -/
theorem scaled_eq : scaled x w1 b1 w2 b2 = scaleBy x (gate x w1 b1 w2 b2) := rfl

theorem gate_ix (b : Fin 128) (c : Fin 64) : gate x w1 b1 w2 b2 (ix2 b c) = gateAt x w1 b1 w2 b2 b c := rfl
theorem scaled_ix (b : Fin 128) (c : Fin 64) (t : Fin 16384) :
    scaled x w1 b1 w2 b2 (ix3 b c t) = x (ix3 b c t) * gateAt x w1 b1 w2 b2 b c := rfl

end Cert.Spec

end
-- ==== Proof.PoolMath.lean ====
/- The kernels' stored values read at an index, at the ideal instance (floats are extended reals, a change of float
   format is the identity): the zeroed scratch, the scratch plus a tile's lane sums, the gate of the accumulated sums
   (mean, first product with relu, second product, logistic), and the rescaled tile. -/
import proofs.«130802_j61168924230407_1_alg».proof.Proof.Gen.KernelIdeal.Skeleton
import proofs.«130802_j61168924230407_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.PoolMath

open Cert.KernelIdeal Cert.KernelIdeal.Gen
open Idealize.ShloMosaic Idealize.ShloMosaic.ValueIdx

/-! ## Layout reads by coordinates -/

/-- An [a, b] array given a trailing unit axis reads, at (i, j, u), the operand at (i, j). -/
private theorem cast_trailing_unit {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    rw [Shape.rowMajor_val_two, Shape.rowMajor_val_three]
    show i.val * b + j.val = (i.val * b + j.val) * 1 + u.val
    have hu : u.val = 0 := by omega
    rw [hu, Nat.mul_one, Nat.add_zero])

/-- An [a, b, 1] array spread along its last axis reads, at (i, j, k), the operand at (i, j, 0). -/
private theorem spread_last {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The reset value is zero everywhere. -/
theorem pay1_apply (i : S64x64.Idx) : (k0_pay1 (F := Ideal) i : EReal) = 0 := by
  unfold k0_pay1
  rw [shapeCast_self]
  refine (broadcast_apply _ i).trans ?_
  exact Ideal.ofBits_zero_f32

/-- A sum over the last axis of a [64, 64, 1024] array into the zero word, at (p, q): the sum over the 1024 lanes. -/
private theorem lane_sum (v : FVec Ideal S64x64x1024 .f32) (h : S64x64x1024.Reduces [2] S64x64) (hφ : FKind.Formats .f32)
    (hacc : (0x00000000#32 : BitVec 32) = 0x00000000#32) (p q : Fin 64) :
    multiReduction (F := Ideal) .add [2] S64x64 v 0x00000000#32 h hφ hacc (ix2 p q) = ∑ l : Fin 1024, v (ix3 p q l) := by
  refine (Ideal.multiReduction_add_single v 0x00000000#32 h hφ hacc (ix2 p q)).trans ?_
  refine Finset.sum_congr rfl fun l _ => ?_
  exact congrArg v (funext fun a => Fin.ext (by match a with | ⟨0, _⟩ => rfl | ⟨1, _⟩ => rfl | ⟨2, _⟩ => rfl))

/-- One accumulation step at an index: what the scratch held plus the sum of the tile's row over its 1024 lanes. -/
theorem pay2_apply (a : Vec Ideal S64x64 .f32) (v : Vec Ideal S64x64x1024 .f32) (p q : Fin 64) :
    (k0_pay2 a v (ix2 p q) : EReal) = (a (ix2 p q) : EReal) + ∑ l : Fin 1024, (v (ix3 p q l) : EReal) := by
  unfold k0_pay2
  rw [shapeCast_self]
  refine (addf_apply _ _ _).trans ?_
  exact congrArg (a (ix2 p q) + ·) (lane_sum v _ _ _ p q)

/-! ## The two products read at an index -/

/- The operand indices of the first product at result index `i` and contraction index `k`, axis by axis: the left
   operand reads (i 0, k), the right operand (k, i 1). -/
private theorem lhs1_0 (i : S64x16.Idx) (k : dot_S64x64_S64x16_S64x16_1_0_0_1_n_n.contr.Idx) :
    (dot_S64x64_S64x16_S64x16_1_0_0_1_n_n.lhsIdx i k 0).val = (i 0).val := by
  unfold DotDims.lhsIdx
  rw [dif_neg (show ¬(0 : Fin S64x64.rank) ∈ dot_S64x64_S64x16_S64x16_1_0_0_1_n_n.lhsBatch by decide), dif_pos (show (0 : Fin S64x64.rank) ∈ dot_S64x64_S64x16_S64x16_1_0_0_1_n_n.lhsNonContracting by decide)]
  rfl
private theorem lhs1_1 (i : S64x16.Idx) (k : dot_S64x64_S64x16_S64x16_1_0_0_1_n_n.contr.Idx) :
    (dot_S64x64_S64x16_S64x16_1_0_0_1_n_n.lhsIdx i k 1).val = (k ⟨0, by decide⟩).val :=
  dot_S64x64_S64x16_S64x16_1_0_0_1_n_n.lhsIdx_val_of_single rfl i k
private theorem rhs1_0 (i : S64x16.Idx) (k : dot_S64x64_S64x16_S64x16_1_0_0_1_n_n.contr.Idx) :
    (dot_S64x64_S64x16_S64x16_1_0_0_1_n_n.rhsIdx i k 0).val = (k ⟨0, by decide⟩).val :=
  dot_S64x64_S64x16_S64x16_1_0_0_1_n_n.rhsIdx_val_of_single rfl i k
private theorem rhs1_1 (i : S64x16.Idx) (k : dot_S64x64_S64x16_S64x16_1_0_0_1_n_n.contr.Idx) :
    (dot_S64x64_S64x16_S64x16_1_0_0_1_n_n.rhsIdx i k 1).val = (i 1).val := by
  unfold DotDims.rhsIdx
  rw [dif_neg (show ¬(1 : Fin S64x16.rank) ∈ dot_S64x64_S64x16_S64x16_1_0_0_1_n_n.rhsBatch by decide), dif_pos (show (1 : Fin S64x16.rank) ∈ dot_S64x64_S64x16_S64x16_1_0_0_1_n_n.rhsNonContracting by decide)]
  rfl

/-- The first product, [64, 64] by [64, 16] into the zero array, at (p, r): the sum over the 64 channels. -/
private theorem matmul1_apply {φ₁ φ₂ : FTy} (lhs : FVec Ideal S64x64 φ₁) (rhs : FVec Ideal S64x16 φ₂) (p : Fin 64) (r : Fin 16) :
    matmul dot_S64x64_S64x16_S64x16_1_0_0_1_n_n none lhs rhs (constant (F := Ideal) S64x16 .f32 0x00000000#32) (ix2 p r)
      = ∑ ch : Fin 64, lhs (ix2 p ch) * rhs (ix2 ch r) := by
  refine (Ideal.matmul_constant_zero_apply dot_S64x64_S64x16_S64x16_1_0_0_1_n_n none lhs rhs (ix2 p r)).trans ?_
  rw [← Equiv.sum_comp (contrEquiv1 dot_S64x64_S64x16_S64x16_1_0_0_1_n_n 64 rfl rfl).symm]
  refine Finset.sum_congr rfl fun k _ => ?_
  have hk := contrEquiv1_symm_val dot_S64x64_S64x16_S64x16_1_0_0_1_n_n 64 rfl rfl k
  have el : dot_S64x64_S64x16_S64x16_1_0_0_1_n_n.lhsIdx (ix2 p r) ((contrEquiv1 dot_S64x64_S64x16_S64x16_1_0_0_1_n_n 64 rfl rfl).symm k) = ix2 p k := funext fun a => Fin.ext (by
    match a with
    | ⟨0, _⟩ => exact lhs1_0 _ _
    | ⟨1, _⟩ => exact (lhs1_1 _ _).trans hk)
  have er : dot_S64x64_S64x16_S64x16_1_0_0_1_n_n.rhsIdx (ix2 p r) ((contrEquiv1 dot_S64x64_S64x16_S64x16_1_0_0_1_n_n 64 rfl rfl).symm k) = ix2 k r := funext fun a => Fin.ext (by
    match a with
    | ⟨0, _⟩ => exact (rhs1_0 _ _).trans hk
    | ⟨1, _⟩ => exact rhs1_1 _ _)
  rw [el, er]

/- The operand indices of the second product, axis by axis: the left operand reads (i 0, k), the right operand (k, i 1). -/
private theorem lhs2_0 (i : S64x64.Idx) (k : dot_S64x16_S16x64_S64x64_1_0_0_1_n_n.contr.Idx) :
    (dot_S64x16_S16x64_S64x64_1_0_0_1_n_n.lhsIdx i k 0).val = (i 0).val := by
  unfold DotDims.lhsIdx
  rw [dif_neg (show ¬(0 : Fin S64x16.rank) ∈ dot_S64x16_S16x64_S64x64_1_0_0_1_n_n.lhsBatch by decide), dif_pos (show (0 : Fin S64x16.rank) ∈ dot_S64x16_S16x64_S64x64_1_0_0_1_n_n.lhsNonContracting by decide)]
  rfl
private theorem lhs2_1 (i : S64x64.Idx) (k : dot_S64x16_S16x64_S64x64_1_0_0_1_n_n.contr.Idx) :
    (dot_S64x16_S16x64_S64x64_1_0_0_1_n_n.lhsIdx i k 1).val = (k ⟨0, by decide⟩).val :=
  dot_S64x16_S16x64_S64x64_1_0_0_1_n_n.lhsIdx_val_of_single rfl i k
private theorem rhs2_0 (i : S64x64.Idx) (k : dot_S64x16_S16x64_S64x64_1_0_0_1_n_n.contr.Idx) :
    (dot_S64x16_S16x64_S64x64_1_0_0_1_n_n.rhsIdx i k 0).val = (k ⟨0, by decide⟩).val :=
  dot_S64x16_S16x64_S64x64_1_0_0_1_n_n.rhsIdx_val_of_single rfl i k
private theorem rhs2_1 (i : S64x64.Idx) (k : dot_S64x16_S16x64_S64x64_1_0_0_1_n_n.contr.Idx) :
    (dot_S64x16_S16x64_S64x64_1_0_0_1_n_n.rhsIdx i k 1).val = (i 1).val := by
  unfold DotDims.rhsIdx
  rw [dif_neg (show ¬(1 : Fin S16x64.rank) ∈ dot_S64x16_S16x64_S64x64_1_0_0_1_n_n.rhsBatch by decide), dif_pos (show (1 : Fin S16x64.rank) ∈ dot_S64x16_S16x64_S64x64_1_0_0_1_n_n.rhsNonContracting by decide)]
  rfl

/-- The second product, [64, 16] by [16, 64] into the zero array, at (p, q): the sum over the 16 hidden units. -/
private theorem matmul2_apply {φ₁ φ₂ : FTy} (lhs : FVec Ideal S64x16 φ₁) (rhs : FVec Ideal S16x64 φ₂) (p q : Fin 64) :
    matmul dot_S64x16_S16x64_S64x64_1_0_0_1_n_n none lhs rhs (constant (F := Ideal) S64x64 .f32 0x00000000#32) (ix2 p q)
      = ∑ r : Fin 16, lhs (ix2 p r) * rhs (ix2 r q) := by
  refine (Ideal.matmul_constant_zero_apply dot_S64x16_S16x64_S64x64_1_0_0_1_n_n none lhs rhs (ix2 p q)).trans ?_
  rw [← Equiv.sum_comp (contrEquiv1 dot_S64x16_S16x64_S64x64_1_0_0_1_n_n 16 rfl rfl).symm]
  refine Finset.sum_congr rfl fun k _ => ?_
  have hk := contrEquiv1_symm_val dot_S64x16_S16x64_S64x64_1_0_0_1_n_n 16 rfl rfl k
  have el : dot_S64x16_S16x64_S64x64_1_0_0_1_n_n.lhsIdx (ix2 p q) ((contrEquiv1 dot_S64x16_S16x64_S64x64_1_0_0_1_n_n 16 rfl rfl).symm k) = ix2 p k := funext fun a => Fin.ext (by
    match a with
    | ⟨0, _⟩ => exact lhs2_0 _ _
    | ⟨1, _⟩ => exact (lhs2_1 _ _).trans hk)
  have er : dot_S64x16_S16x64_S64x64_1_0_0_1_n_n.rhsIdx (ix2 p q) ((contrEquiv1 dot_S64x16_S16x64_S64x64_1_0_0_1_n_n 16 rfl rfl).symm k) = ix2 k q := funext fun a => Fin.ext (by
    match a with
    | ⟨0, _⟩ => exact (rhs2_0 _ _).trans hk
    | ⟨1, _⟩ => exact rhs2_1 _ _)
  rw [el, er]

/-! ## The float words -/

/-- The word 0x46800000 denotes 16384. -/
private theorem word_16384 : Ideal.ofBits .f32 0x46800000#32 = ((16384 : ℝ) : EReal) := by
  simp [Ideal.ofBits, Ideal.ieee, -EReal.coe_mul]; norm_num

/-- The word 0x38800000 denotes 2^-14, the reciprocal of 16384. -/
private theorem word_inv_16384 : Ideal.ofBits .f32 0x38800000#32 = ((1 / 16384 : ℝ) : EReal) := by
  simp [Ideal.ofBits, Ideal.ieee, -EReal.coe_mul]; norm_num

/-- The product with the word 2^-14 is the quotient by the word 16384, on every extended real. -/
private theorem mul_word_eq_div (x : EReal) :
    x * Ideal.ofBits .f32 0x38800000#32 = Ideal.div x (Ideal.ofBits .f32 0x46800000#32) := by
  rw [word_16384, Ideal.div_coe (by norm_num : (16384 : ℝ) ≠ 0), word_inv_16384]

/-- The logistic of an array at an index is the logistic of the element. -/
private theorem logistic_apply {s : Shape} {φ : FTy} (a : FVec Ideal s φ) (i : s.Idx) : logistic a i = Ideal.logistic (a i) := rfl

/-- The gate at an index, from the accumulated sums: the kernel's product with the word 2^-14 is the quotient by the
    word 16384 on every extended real. -/
theorem pay3_apply (acc : Vec Ideal S64x64 .f32) (w1 : Vec Ideal S16x64 .f32) (b1 : Vec Ideal S16 .f32) (w2 : Vec Ideal S64x16 .f32) (b2 : Vec Ideal S64 .f32) (p q : Fin 64) :
    (k0_pay3 acc w1 b1 w2 b2 (ix2 p q) : EReal)
      = Ideal.logistic ((∑ r : Fin 16, max ((∑ ch : Fin 64, Ideal.div (acc (ix2 p ch) : EReal) (Ideal.ofBits .f32 0x46800000#32) * (w1 (ix2 r ch) : EReal)) + (b1 (ix1 r) : EReal)) (Ideal.ofBits .f32 0x00000000#32) * (w2 (ix2 q r) : EReal)) + (b2 (ix1 q) : EReal)) := by
  unfold k0_pay3
  simp only [logistic_apply, addf_apply, matmul2_apply, matmul1_apply, truncf_apply, maximumf_apply, mulf_apply, broadcast_apply,
    broadcastTo_1b_ab_apply, shapeCast_a_1a_apply, Ideal.ofBits_def, mul_word_eq_div]
  refine congrArg Ideal.logistic (congrArg (· + b2 (ix1 q)) (Finset.sum_congr rfl fun r _ => ?_))
  rw [transpose_ix2_apply _ _ r q]
  refine congrArg (fun t => max (t + b1 (ix1 r)) _ * _) (Finset.sum_congr rfl fun ch _ => ?_)
  rw [transpose_ix2_apply _ _ ch r]
  rfl

/-- The rescaled tile at an index. -/
theorem rescale_apply (x0 : Vec Ideal S64x64x512 .f32) (x1 : Vec Ideal S64x64 .f32) (p q : Fin 64) (l : Fin 512) :
    (k1_pay1 x0 x1 (ix3 p q l) : EReal) = (x0 (ix3 p q l) : EReal) * (x1 (ix2 p q) : EReal) := by
  unfold k1_pay1
  refine (mulf_apply _ _ _).trans ?_
  refine congrArg (x0 (ix3 p q l) * ·) ?_
  refine (spread_last _ _ p q l).trans ?_
  refine (cast_trailing_unit _ _ p q 0).trans ?_
  rw [shapeCast_self]

end Cert.KernelIdeal.PoolMath

end
-- ==== Proof.Ideal.Acc.lean ====
/- The scratch of region 0 at the ideal instance, in closed form. Point 16 i + j reads the tile of x at rows
   64 i .. 64 i + 63 and positions 1024 j .. 1024 j + 1023; the scratch after that point holds, at (p, q), the sum of
   x (64 i + p, q, ·) over the first 1024 (j + 1) positions (induction on j: zero plus the first tile's lane sums at
   j = 0, one more tile's lane sums per point), so after the last tile of a row block it holds the whole row sum. -/
import proofs.«130802_j61168924230407_1_alg».proof.Proof.Ideal.Setup
import proofs.«130802_j61168924230407_1_alg».proof.Proof.PoolMath
import Idealize.ShloMosaic.Lib.Pipeline.Value
import Mathlib.Algebra.BigOperators.Group.Finset.Basic
import Mathlib.Data.Fintype.BigOperators

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-- The row of x that entry (p, ·) of the block of point `t` reads: 64 (t / 16) + p. -/
def rowOf (t : Fin cfg0.N) (p : Fin 64) : Fin 128 :=
  ⟨64 * (t.val / 16) + p.val, by have h := t.isLt; have hN : cfg0.N = 32 := N_0; omega⟩

/-- Row (b, q) of x as a sequence of extended reals, continued by zero past its 16384 positions. -/
private def rowSeq (x : Cert.Spec.SX.Idx → EReal) (b : Fin 128) (q : Fin 64) (k : ℕ) : EReal :=
  if h : k < 16384 then x (ix3 b q ⟨k, h⟩) else 0

/-- The block of x at point t sits at block coordinates (t / 16, 0, t % 16). -/
private theorem xIndex : ∀ t : Fin cfg0.N, win0_0.index t 0 = t.val / 16 ∧ win0_0.index t 1 = 0 ∧ win0_0.index t 2 = t.val % 16 :=
  (by decide +kernel : ∀ t : Fin grid0.N, win0_0.index t 0 = t.val / 16 ∧ win0_0.index t 1 = 0 ∧ win0_0.index t 2 = t.val % 16)

/-- The tile of point t read at (p, q, l) is x at row 64 (t / 16) + p, channel q, position 1024 (t % 16) + l. -/
private theorem xblk0_apply (c : Dev nD) (t : Fin cfg0.N) (p q : Fin 64) (l : Fin 1024) (hl : 1024 * (t.val % 16) + l.val < 16384) :
    (xblk0 V c t (ix3 p q l) : EReal) = (V c main_arg0 : Cert.Spec.SX.Idx → EReal) (ix3 (rowOf t p) q ⟨1024 * (t.val % 16) + l.val, hl⟩) := by
  show V c main_arg0 (((cfg0.win 0).blk t).view.emb (ix3 p q l)) = V c main_arg0 _
  congr 1
  funext a
  apply Fin.ext
  obtain ⟨h0, h1, h2⟩ := xIndex t
  match a with
  | ⟨0, _⟩ => show win0_0.index t 0 * 64 + 1 * p.val = 64 * (t.val / 16) + p.val; rw [h0]; omega
  | ⟨1, _⟩ => show win0_0.index t 1 * 64 + 1 * q.val = q.val; rw [h1]; omega
  | ⟨2, _⟩ => show win0_0.index t 2 * 1024 + 1 * l.val = 1024 * (t.val % 16) + l.val; rw [h2]; omega

/-- The lane sums of the tile of point t: 1024 consecutive terms of the row, from position 1024 (t % 16). -/
private theorem tile_sum (c : Dev nD) (t : Fin cfg0.N) (p q : Fin 64) :
    ∑ l : Fin 1024, (xblk0 V c t (ix3 p q l) : EReal)
      = ∑ l ∈ Finset.range 1024, rowSeq (V c main_arg0) (rowOf t p) q (1024 * (t.val % 16) + l) := by
  rw [← Fin.sum_univ_eq_sum_range (fun l => rowSeq (V c main_arg0) (rowOf t p) q (1024 * (t.val % 16) + l)) 1024]
  refine Finset.sum_congr rfl fun l _ => ?_
  have hl : 1024 * (t.val % 16) + l.val < 16384 := by have := l.isLt; omega
  rw [xblk0_apply V c t p q l hl]
  unfold rowSeq
  rw [dif_pos hl]

/-- The scratch after point n holds, at (p, q), the first 1024 (n % 16 + 1) terms of the row 64 (n / 16) + p, q. -/
private theorem accAt0_prefix (c : Dev nD) (p q : Fin 64) : ∀ (n : ℕ) (hn : n < cfg0.N),
    (accAt0 V c n hn (ix2 p q) : EReal)
      = ∑ k ∈ Finset.range (1024 * (n % 16 + 1)), rowSeq (V c main_arg0) (rowOf ⟨n, hn⟩ p) q k
  | 0, hn => by
    rw [accAt0_reset V c ⟨0, hn⟩ rfl, PoolMath.pay2_apply, PoolMath.pay1_apply, zero_add, tile_sum]
    refine Finset.sum_congr rfl fun k _ => ?_
    show rowSeq _ _ _ (1024 * (0 % 16) + k) = _
    rw [Nat.zero_mod, Nat.mul_zero, Nat.zero_add]
  | n + 1, hn => by
    by_cases h : (n + 1) % 16 = 0
    · rw [accAt0_reset V c ⟨n + 1, hn⟩ h, PoolMath.pay2_apply, PoolMath.pay1_apply, zero_add, tile_sum]
      show ∑ l ∈ Finset.range 1024, rowSeq _ _ _ (1024 * ((n + 1) % 16) + l) = _
      rw [h, Nat.mul_zero, Nat.zero_add, Nat.mul_one]
      exact Finset.sum_congr rfl fun k _ => by rw [Nat.zero_add]
    · have hstep : accAt0 V c (n + 1) hn = k0_pay2 (accAt0 V c n (Nat.lt_of_succ_lt hn)) (xblk0 V c ⟨n + 1, hn⟩) := if_neg h
      have hrow : rowOf ⟨n, Nat.lt_of_succ_lt hn⟩ p = rowOf ⟨n + 1, hn⟩ p := by
        apply Fin.ext
        show 64 * (n / 16) + p.val = 64 * ((n + 1) / 16) + p.val
        omega
      have hlen : 1024 * ((n + 1) % 16 + 1) = 1024 * (n % 16 + 1) + 1024 := by omega
      have hoff : 1024 * ((n + 1) % 16) = 1024 * (n % 16 + 1) := by omega
      rw [hstep, PoolMath.pay2_apply, accAt0_prefix c p q n (Nat.lt_of_succ_lt hn), tile_sum, hrow, hlen,
        Finset.sum_range_add]
      show _ + ∑ l ∈ Finset.range 1024, rowSeq _ _ _ (1024 * ((n + 1) % 16) + l) = _
      rw [hoff]

/-- After the last tile of a row block the scratch holds the row sums over all 16384 positions. -/
theorem accAt0_last (c : Dev nD) (t : Fin cfg0.N) (h : t.val % 16 = 15) (p q : Fin 64) :
    (accAt0 V c t.val t.isLt (ix2 p q) : EReal) = Cert.Spec.pooled (V c main_arg0) (rowOf t p) q := by
  rw [accAt0_prefix V c p q t.val t.isLt, h]
  unfold Cert.Spec.pooled
  rw [← Fin.sum_univ_eq_sum_range (fun k => rowSeq (V c main_arg0) (rowOf t p) q k) (1024 * (15 + 1))]
  refine Finset.sum_congr rfl fun k _ => ?_
  unfold rowSeq
  rw [dif_pos k.isLt]

end Cert.KernelIdeal.Hand

end
-- ==== Proof.Ideal.Value0.lean ====
/- Region 0's output array after the run, at the ideal instance: the gate of the specification. The scratch after
   point 16 i + j holds, at (p, q), the sum of x (64 i + p, q, ·) over the first (j + 1) * 1024 positions (induction on
   j: a reset at j = 0, one tile's lane sums added per point); at j = 15 that is the whole row sum, the block stored
   and written back is the gate's block i, and the two blocks cover the array. -/
import proofs.«130802_j61168924230407_1_alg».proof.Proof.Ideal.Setup
import proofs.«130802_j61168924230407_1_alg».proof.Proof.PoolMath
import proofs.«130802_j61168924230407_1_alg».proof.Proof.Ideal.Acc
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-- The printed index maps, decided over the grid: the four small inputs are fetched whole (block index zero on every
    axis) and the output's row-block index is the quotient of the point by 16. -/
theorem idx_facts0 : ∀ t : Fin cfg0.N,
    win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val / 16 ∧ win0_5.index t (1 : Fin 2) = 0 :=
  (by decide +kernel : ∀ t : Fin grid0.N, _)

/-- The block of w1 at any point, read at (r, ch), is w1 there: the block is the whole array. -/
theorem w1blk0_apply (c : Dev nD) (t : Fin cfg0.N) (r : Fin 16) (ch : Fin 64) :
    (w1blk0 V c t (ix2 r ch) : EReal) = V c main_arg1 (ix2 r ch) := by
  obtain ⟨e0, e1, -⟩ := idx_facts0 t
  unfold w1blk0 iblk0
  rw [View.read_apply]
  show V c main_arg1 _ = V c main_arg1 _
  congr 1
  funext a; apply Fin.ext
  match a with
  | ⟨0, _⟩ => show win0_1.index t (0 : Fin 2) * 16 + 1 * r.val = r.val; rw [e0]; omega
  | ⟨1, _⟩ => show win0_1.index t (1 : Fin 2) * 64 + 1 * ch.val = ch.val; rw [e1]; omega

/-- The block of b1 at any point, read at r, is b1 there. -/
theorem b1blk0_apply (c : Dev nD) (t : Fin cfg0.N) (r : Fin 16) :
    (b1blk0 V c t (ix1 r) : EReal) = V c main_arg2 (ix1 r) := by
  obtain ⟨-, -, e0, -⟩ := idx_facts0 t
  unfold b1blk0 iblk0
  rw [View.read_apply]
  show V c main_arg2 _ = V c main_arg2 _
  congr 1
  funext a; apply Fin.ext
  match a with
  | ⟨0, _⟩ => show win0_2.index t (0 : Fin 1) * 16 + 1 * r.val = r.val; rw [e0]; omega

/-- The block of w2 at any point, read at (q, r), is w2 there. -/
theorem w2blk0_apply (c : Dev nD) (t : Fin cfg0.N) (q : Fin 64) (r : Fin 16) :
    (w2blk0 V c t (ix2 q r) : EReal) = V c main_arg3 (ix2 q r) := by
  obtain ⟨-, -, -, e0, e1, -⟩ := idx_facts0 t
  unfold w2blk0 iblk0
  rw [View.read_apply]
  show V c main_arg3 _ = V c main_arg3 _
  congr 1
  funext a; apply Fin.ext
  match a with
  | ⟨0, _⟩ => show win0_3.index t (0 : Fin 2) * 64 + 1 * q.val = q.val; rw [e0]; omega
  | ⟨1, _⟩ => show win0_3.index t (1 : Fin 2) * 16 + 1 * r.val = r.val; rw [e1]; omega

/-- The block of b2 at any point, read at q, is b2 there. -/
theorem b2blk0_apply (c : Dev nD) (t : Fin cfg0.N) (q : Fin 64) :
    (b2blk0 V c t (ix1 q) : EReal) = V c main_arg4 (ix1 q) := by
  obtain ⟨-, -, -, -, -, e0, -⟩ := idx_facts0 t
  unfold b2blk0 iblk0
  rw [View.read_apply]
  show V c main_arg4 _ = V c main_arg4 _
  congr 1
  funext a; apply Fin.ext
  match a with
  | ⟨0, _⟩ => show win0_4.index t (0 : Fin 1) * 64 + 1 * q.val = q.val; rw [e0]; omega

/-- What the last tile's point stores, at (p, q): the specification's gate of row 64 (t / 16) + p, channel q. -/
theorem sAt0_apply (c : Dev nD) (t : Fin cfg0.N) (h : t.val % 16 = 15) (p q : Fin 64) :
    (sAt0 V c t (ix2 p q) : EReal)
      = Cert.Spec.gateAt (V c main_arg0) (V c main_arg1) (V c main_arg2) (V c main_arg3) (V c main_arg4) (rowOf t p) q := by
  unfold sAt0
  refine (Cert.KernelIdeal.PoolMath.pay3_apply _ _ _ _ _ p q).trans ?_
  unfold Cert.Spec.gateAt Cert.Spec.hidden Cert.Spec.mean
  simp only [accAt0_last V c t h, w1blk0_apply, b1blk0_apply, w2blk0_apply, b2blk0_apply]

/-- Entry (p, q) of the output's block at point t sits in the array at row 64 (t / 16) + p, column q. -/
theorem emb0_5 (t : Fin cfg0.N) (p q : Fin 64) :
    ((cfg0.win 5).blk t).view.emb (ix2 p q) = ix2 (rowOf t p) q := by
  obtain ⟨-, -, -, -, -, -, e0, e1⟩ := idx_facts0 t
  funext a; apply Fin.ext
  match a with
  | ⟨0, _⟩ => show win0_5.index t (0 : Fin 2) * 64 + 1 * p.val = 64 * (t.val / 16) + p.val; rw [e0]; omega
  | ⟨1, _⟩ => show win0_5.index t (1 : Fin 2) * 64 + 1 * q.val = q.val; rw [e1]; omega

/-- What a point that writes back writes is its block of the specification's gate. -/
theorem flushed0_5_eq (c : Dev nD) (t : Fin cfg0.N) (hf : (cfg0.win 5).flush t = true) :
    (dat0 (F := Ideal) V c).flushed 5 t
      = ((cfg0.win 5).blk t).view.read (Elt Ideal)
          (Cert.Spec.gate (V c main_arg0) (V c main_arg1) (V c main_arg2) (V c main_arg3) (V c main_arg4)) := by
  have h15 : t.val % 16 = 15 := (flush0_5 t).mp hf
  show (cfg0.win 5).cut (grid0.coords t) ((dat0 (F := Ideal) V c).after 5 t) = _
  rw [after0_5]
  refine funext fun (j : S64x64.Idx) => ?_
  obtain ⟨p, q, rfl⟩ : ∃ (p : Fin 64) (q : Fin 64), j = ix2 p q := ⟨j 0, j 1, eq_ix2 j⟩
  rw [View.read_apply]
  show (sAt0 V c t (ix2 p q) : EReal)
    = Cert.Spec.gate (V c main_arg0) (V c main_arg1) (V c main_arg2) (V c main_arg3) (V c main_arg4)
        (((cfg0.win 5).blk t).view.emb (ix2 p q))
  rw [sAt0_apply V c t h15 p q, emb0_5 t p q]
  rfl

/-- Every index of the gate's array is in the block of the last tile's point of its row block. -/
theorem cover0_5 (i : S128x64.Idx) :
    ∃ t : Fin cfg0.N, (cfg0.win 5).flush t = true ∧ i ∈ ((cfg0.win 5).blk t).view.set := by
  have hN : cfg0.N = 32 := N_0
  have h0 : (i 0 : Nat) < 128 := (i 0).isLt
  have h1 : (i 1 : Nat) < 64 := (i 1).isLt
  let t : Fin cfg0.N := ⟨16 * ((i 0 : Nat) / 64) + 15, by omega⟩
  have ht : t.val = 16 * ((i 0 : Nat) / 64) + 15 := rfl
  obtain ⟨-, -, -, -, -, -, e0, e1⟩ := idx_facts0 t
  refine ⟨t, (flush0_5 t).mpr (by omega), ?_⟩
  show i ∈ ((View.whole main_v0).slice (win0_5.rect t)).set
  rw [View.set_slice_whole, Rect.mem_set_unit]
  intro a
  match a with
  | ⟨0, _⟩ =>
    show win0_5.index t (0 : Fin 2) * 64 ≤ (i 0 : Nat) ∧ (i 0 : Nat) < win0_5.index t (0 : Fin 2) * 64 + 64
    rw [e0]; omega
  | ⟨1, _⟩ =>
    show win0_5.index t (1 : Fin 2) * 64 ≤ (i 1 : Nat) ∧ (i 1 : Nat) < win0_5.index t (1 : Fin 2) * 64 + 64
    rw [e1]; omega

/-- Region 0's output array after all write-backs is the specification's gate: each point that writes back writes its
    block of it, and those blocks cover the array. -/
theorem gate_array (c : Dev nD) :
    (dat0 (F := Ideal) V c).arrAt 5 cfg0.N
      = Cert.Spec.gate (V c main_arg0) (V c main_arg1) (V c main_arg2) (V c main_arg3) (V c main_arg4) :=
  (dat0 (F := Ideal) V c).arrAt_eq_of_cover 5 _ (flushed0_5_eq V c) cover0_5

end Cert.KernelIdeal.Hand

end
-- ==== Proof.Ideal.Value1.lean ====
/- Region 1's output array after the run, at the ideal instance: every entry of x times the entry of the gate array
   the region was entered with, at the same row and channel. Each point stores its tile of x times the gate's block
   spread along the lanes and writes it back; the 64 tiles cover the array. -/
import proofs.«130802_j61168924230407_1_alg».proof.Proof.Ideal.Setup
import proofs.«130802_j61168924230407_1_alg».proof.Proof.PoolMath
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-- The three index maps of region 1 over its grid of 2 x 32 points, point t = 32 i + j: the tile of x and the output
    tile sit at row block t / 32, channel block 0, lane block t % 32; the gate's block at row block t / 32, channel
    block 0. -/
private theorem rescale_index_maps : ∀ t : Fin cfg1.N,
    win1_0.index t (0 : Fin 3) = t.val / 32 ∧ win1_0.index t (1 : Fin 3) = 0 ∧ win1_0.index t (2 : Fin 3) = t.val % 32
    ∧ win1_1.index t (0 : Fin 2) = t.val / 32 ∧ win1_1.index t (1 : Fin 2) = 0
    ∧ win1_2.index t (0 : Fin 3) = t.val / 32 ∧ win1_2.index t (1 : Fin 3) = 0 ∧ win1_2.index t (2 : Fin 3) = t.val % 32 :=
  (by decide +kernel : ∀ t : Fin grid1.N, _)

/-- Entry (p, q, l) of the output tile at point t is entry (64 (t / 32) + p, q, 512 (t % 32) + l) of the array. -/
private theorem out_tile_at (t : Fin cfg1.N) (p q : Fin 64) (l : Fin 512)
    (hb : t.val / 32 * 64 + p.val < 128) (hl : t.val % 32 * 512 + l.val < 16384) :
    ((cfg1.win 2).blk t).view.emb (ix3 p q l)
      = (ix3 ⟨t.val / 32 * 64 + p.val, hb⟩ q ⟨t.val % 32 * 512 + l.val, hl⟩ : S128x64x16384.Idx) := by
  obtain ⟨e0, e1, e2, e3, e4, e5, e6, e7⟩ := rescale_index_maps t
  funext a; apply Fin.ext
  match a with
  | ⟨0, _⟩ => show win1_2.index t (0 : Fin 3) * 64 + 1 * p.val = t.val / 32 * 64 + p.val; omega
  | ⟨1, _⟩ => show win1_2.index t (1 : Fin 3) * 64 + 1 * q.val = q.val; omega
  | ⟨2, _⟩ => show win1_2.index t (2 : Fin 3) * 512 + 1 * l.val = t.val % 32 * 512 + l.val; omega

/-- The tile of x at point t is the same rectangle of its array. -/
private theorem x_tile_at (t : Fin cfg1.N) (p q : Fin 64) (l : Fin 512)
    (hb : t.val / 32 * 64 + p.val < 128) (hl : t.val % 32 * 512 + l.val < 16384) :
    ((cfg1.win 0).blk t).view.emb (ix3 p q l)
      = (ix3 ⟨t.val / 32 * 64 + p.val, hb⟩ q ⟨t.val % 32 * 512 + l.val, hl⟩ : S128x64x16384.Idx) := by
  obtain ⟨e0, e1, e2, e3, e4, e5, e6, e7⟩ := rescale_index_maps t
  funext a; apply Fin.ext
  match a with
  | ⟨0, _⟩ => show win1_0.index t (0 : Fin 3) * 64 + 1 * p.val = t.val / 32 * 64 + p.val; omega
  | ⟨1, _⟩ => show win1_0.index t (1 : Fin 3) * 64 + 1 * q.val = q.val; omega
  | ⟨2, _⟩ => show win1_0.index t (2 : Fin 3) * 512 + 1 * l.val = t.val % 32 * 512 + l.val; omega

/-- Entry (p, q) of the gate's block at point t is entry (64 (t / 32) + p, q) of the gate array. -/
private theorem gate_block_at (t : Fin cfg1.N) (p q : Fin 64) (hb : t.val / 32 * 64 + p.val < 128) :
    ((cfg1.win 1).blk t).view.emb (ix2 p q) = (ix2 ⟨t.val / 32 * 64 + p.val, hb⟩ q : S128x64.Idx) := by
  obtain ⟨e0, e1, e2, e3, e4, e5, e6, e7⟩ := rescale_index_maps t
  funext a; apply Fin.ext
  match a with
  | ⟨0, _⟩ => show win1_1.index t (0 : Fin 2) * 64 + 1 * p.val = t.val / 32 * 64 + p.val; omega
  | ⟨1, _⟩ => show win1_1.index t (1 : Fin 2) * 64 + 1 * q.val = q.val; omega

/-- What point t writes back is its tile of x scaled by the gate: at (p, q, l) the stored product is
    x (64 (t / 32) + p, q, 512 (t % 32) + l) times the gate at (64 (t / 32) + p, q), and the output tile's entry
    (p, q, l) is the array's entry at those same coordinates. -/
private theorem written_tile (c : Dev nD) (t : Fin cfg1.N) :
    (dat1 (F := Ideal) V c).flushed 2 t
      = ((cfg1.win 2).blk t).view.read (Elt Ideal) (Cert.Spec.scaleBy (V c main_arg0) (V c main_v0)) := by
  show (cfg1.win 2).cut (grid1.coords t) ((dat1 V c).after 2 t) = _
  rw [after1_2]
  funext j
  obtain ⟨p, q, l, rfl⟩ : ∃ (p : Fin 64) (q : Fin 64) (l : Fin 512), j = ix3 p q l := ⟨j 0, j 1, j 2, eq_ix3 j⟩
  have ht : t.val < 64 := lt_of_lt_of_eq t.isLt N_1
  have hb : t.val / 32 * 64 + p.val < 128 := by have := p.isLt; omega
  have hl : t.val % 32 * 512 + l.val < 16384 := by have := l.isLt; omega
  show oAt1 V c t (ix3 p q l)
    = Cert.Spec.scaleBy (V c main_arg0) (V c main_v0) (((cfg1.win 2).blk t).view.emb (ix3 p q l))
  rw [out_tile_at t p q l hb hl, Cert.Spec.scaleBy_ix]
  unfold oAt1
  refine (PoolMath.rescale_apply _ _ p q l).trans ?_
  have hx : xblk1 V c t (ix3 p q l)
      = V c main_arg0 (ix3 ⟨t.val / 32 * 64 + p.val, hb⟩ q ⟨t.val % 32 * 512 + l.val, hl⟩ : S128x64x16384.Idx) := by
    show V c main_arg0 (((cfg1.win 0).blk t).view.emb (ix3 p q l)) = _
    rw [x_tile_at t p q l hb hl]
  have hs : sblk1 V c t (ix2 p q) = V c main_v0 (ix2 ⟨t.val / 32 * 64 + p.val, hb⟩ q : S128x64.Idx) := by
    show V c main_v0 (((cfg1.win 1).blk t).view.emb (ix2 p q)) = _
    rw [gate_block_at t p q hb]
  rw [hx, hs]

/-- An index of the array is in point t's output tile iff each coordinate is in the tile's range on its axis. -/
private theorem mem_out_tile (t : Fin cfg1.N) (i : S128x64x16384.Idx) :
    i ∈ ((cfg1.win 2).blk t).view.set
      ↔ ∀ a : Fin 3, win1_2.index t a * S64x64x512.size a ≤ (i a).val
          ∧ (i a).val < win1_2.index t a * S64x64x512.size a + S64x64x512.size a := by
  show i ∈ ((View.whole main_v1).slice (win1_2.rect t)).set ↔ _
  rw [View.set_slice_whole, Rect.mem_set_unit]
  exact Iff.rfl

/-- The 64 output tiles cover the array: index (b, ch, s) lies in the tile of point 32 (b / 64) + s / 512, and every
    point writes its tile back. -/
private theorem out_tiles_cover (i : S128x64x16384.Idx) :
    ∃ t : Fin cfg1.N, (cfg1.win 2).flush t = true ∧ i ∈ ((cfg1.win 2).blk t).view.set := by
  obtain ⟨b, ch, s, rfl⟩ : ∃ (b : Fin 128) (ch : Fin 64) (s : Fin 16384), i = ix3 b ch s :=
    ⟨i 0, i 1, i 2, eq_ix3 i⟩
  have hb := b.isLt
  have hch := ch.isLt
  have hs := s.isLt
  obtain ⟨t, ht⟩ : ∃ t : Fin cfg1.N, t.val = 32 * (b.val / 64) + s.val / 512 :=
    ⟨⟨32 * (b.val / 64) + s.val / 512, lt_of_lt_of_eq (by omega) N_1.symm⟩, rfl⟩
  refine ⟨t, flush1_2 t, ?_⟩
  rw [mem_out_tile]
  obtain ⟨e0, e1, e2, e3, e4, e5, e6, e7⟩ := rescale_index_maps t
  intro a
  match a with
  | ⟨0, _⟩ => show win1_2.index t (0 : Fin 3) * 64 ≤ b.val ∧ b.val < win1_2.index t (0 : Fin 3) * 64 + 64; omega
  | ⟨1, _⟩ => show win1_2.index t (1 : Fin 3) * 64 ≤ ch.val ∧ ch.val < win1_2.index t (1 : Fin 3) * 64 + 64; omega
  | ⟨2, _⟩ => show win1_2.index t (2 : Fin 3) * 512 ≤ s.val ∧ s.val < win1_2.index t (2 : Fin 3) * 512 + 512; omega

theorem scaled_array (c : Dev nD) :
    (dat1 (F := Ideal) V c).arrAt 2 cfg1.N
      = Cert.Spec.scaleBy (V c main_arg0) (V c main_v0) :=
  (dat1 V c).arrAt_eq_of_cover 2 _ (fun t _ => written_tile V c t) out_tiles_cover

end Cert.KernelIdeal.Hand

end
-- ==== Proof.RefSide.lean ====
/- The reference's two results, at the ideal instance, are the specification's arrays: its run composes 27 host
   operations (a sum over the last axis, a quotient by 16384, two products contracting the second axis of both operands,
   broadcasts of the biases, a maximum with zero, and 1 / (1 + exp (-g))), read here one operation at a time at an index. -/
import proofs.«130802_j61168924230407_1_alg».proof.Proof.Gen.ReferenceIdeal.Run
import proofs.«130802_j61168924230407_1_alg».proof.Proof.Gen.ReferenceIdeal.Read
import proofs.«130802_j61168924230407_1_alg».proof.Proof.Spec
import Idealize.ShloMosaic.Lib.IdealHost

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.StableHlo Idealize.ShloMosaic.ValueIdx

variable (x0 : (⟨S128x64x16384, .f32⟩ : BufTy).Contents (Elt Ideal)) (x1 : (⟨S16x64, .f32⟩ : BufTy).Contents (Elt Ideal)) (x2 : (⟨S16, .f32⟩ : BufTy).Contents (Elt Ideal)) (x3 : (⟨S64x16, .f32⟩ : BufTy).Contents (Elt Ideal)) (x4 : (⟨S64, .f32⟩ : BufTy).Contents (Elt Ideal))

/-! ## The index functions of the generated reads, at an index given by its coordinates -/

/-- The sum over the last axis reads row (b, c) at position k. -/
private theorem idx_v0 (b : Fin 128) (c : Fin 64) (k : Fin 16384) : idx_main_v0 (ix2 b c) k = ix3 b c k :=
  funext fun a => Fin.ext (by match a with | ⟨0, _⟩ => rfl | ⟨1, _⟩ => rfl | ⟨2, _⟩ => rfl)

/-- The first product's left factor: the mean of row block b at channel k. -/
private theorem lidx_v3 (b : Fin 128) (r : Fin 16) (k : Fin 64) : lidx_main_v3 (ix2 b r) k = ix2 b k :=
  funext fun a => Fin.ext (by match a with | ⟨0, _⟩ => rfl | ⟨1, _⟩ => rfl)

/-- The first product's right factor: the first weight at (r, k). -/
private theorem ridx_v3 (b : Fin 128) (r : Fin 16) (k : Fin 64) : ridx_main_v3 (ix2 b r) k = ix2 r k :=
  funext fun a => Fin.ext (by match a with | ⟨0, _⟩ => rfl | ⟨1, _⟩ => rfl)

/-- The first bias, spread over the rows, is read at r. -/
private theorem idx_v45 (b : Fin 128) (r : Fin 16) : idx_main_v4 (idx_main_v5 (ix2 b r)) = ix1 r :=
  funext fun a => Fin.ext (by match a with | ⟨0, _⟩ => rfl)

/-- The second product's left factor: the hidden value of row block b at k. -/
private theorem lidx_v8 (b : Fin 128) (c : Fin 64) (k : Fin 16) : lidx_main_v8 (ix2 b c) k = ix2 b k :=
  funext fun a => Fin.ext (by match a with | ⟨0, _⟩ => rfl | ⟨1, _⟩ => rfl)

/-- The second product's right factor: the second weight at (c, k). -/
private theorem ridx_v8 (b : Fin 128) (c : Fin 64) (k : Fin 16) : ridx_main_v8 (ix2 b c) k = ix2 c k :=
  funext fun a => Fin.ext (by match a with | ⟨0, _⟩ => rfl | ⟨1, _⟩ => rfl)

/-- The second bias, spread over the rows, is read at c. -/
private theorem idx_v910 (b : Fin 128) (c : Fin 64) : idx_main_v9 (idx_main_v10 (ix2 b c)) = ix1 c :=
  funext fun a => Fin.ext (by match a with | ⟨0, _⟩ => rfl)

/-- The gate, spread along the last axis, is read at (b, c). -/
private theorem idx_v1819 (b : Fin 128) (c : Fin 64) (t : Fin 16384) :
    idx_main_v18 (idx_main_v19 (ix3 b c t)) = ix2 b c :=
  funext fun a => Fin.ext (by match a with | ⟨0, _⟩ => rfl | ⟨1, _⟩ => rfl)

/-! ## The stages, one index at a time -/

/-- The quotient of the row sum by 16384 is the specification's mean. The sum starts from the word of zero, which adds
    nothing. -/
private theorem mean_ix (b : Fin 128) (c : Fin 64) :
    val_main_v2 (F := Ideal) x0 (ix2 b c) = Cert.Spec.mean x0 b c := by
  rw [val_main_v2_apply, val_main_v0_apply, val_main_v1_apply, val_main_cst_apply, val_main_cst_0_apply]
  simp only [Ideal.hostDivf_def, Ideal.ofBits_def, Ideal.ofBits_zero_f32, zero_add, idx_v0]
  rfl

/-- The first layer: the product against the first weight, plus the first bias, cut below at zero. -/
private theorem hidden_ix (b : Fin 128) (r : Fin 16) :
    val_main_v7 (F := Ideal) x0 x1 x2 (ix2 b r) = Cert.Spec.hidden x0 x1 x2 b r := by
  rw [val_main_v7_apply, val_main_v6_apply, val_main_v3_apply, val_main_v5_apply, val_main_v4_apply,
    val_main_call0_v0_apply, val_main_call0_cst_apply]
  simp only [Ideal.maximumf_def, Ideal.addf_def, Ideal.ofBits_def, lidx_v3, ridx_v3, idx_v45, mean_ix]
  rfl

/-- The second layer and the logistic: one over one plus the exponential of the negated sum is the logistic of the sum,
    the two words of one being the extended real one. -/
private theorem gate_ix (b : Fin 128) (c : Fin 64) :
    val_main_v17 (F := Ideal) x0 x1 x2 x3 x4 (ix2 b c) = Cert.Spec.gateAt x0 x1 x2 x3 x4 b c := by
  rw [val_main_v17_apply, val_main_v16_apply, val_main_cst_2_apply, val_main_v15_apply, val_main_v14_apply,
    val_main_cst_1_apply, val_main_v13_apply, val_main_v12_apply, val_main_v11_apply, val_main_v8_apply,
    val_main_v10_apply, val_main_v9_apply]
  simp only [Ideal.hostDivf_def, Ideal.addf_def, Ideal.hostUnary_exp_def, Ideal.hostNegf_def, Ideal.negf_def,
    Ideal.ofBits_def, Ideal.ofBits_one_f32, lidx_v8, ridx_v8, idx_v910, hidden_ix]
  rfl

/-- The reference's gate is the specification's. -/
theorem ref_gate : val_main_v17 (F := Ideal) x0 x1 x2 x3 x4 = Cert.Spec.gate x0 x1 x2 x3 x4 := by
  funext i
  obtain ⟨b, c, rfl⟩ : ∃ (b : Fin 128) (c : Fin 64), i = ix2 b c := ⟨i 0, i 1, eq_ix2 i⟩
  exact gate_ix x0 x1 x2 x3 x4 b c

/-- The reference's rescaled array is the specification's. -/
theorem ref_scaled : val_main_v20 (F := Ideal) x0 x1 x2 x3 x4 = Cert.Spec.scaled x0 x1 x2 x3 x4 := by
  funext i
  obtain ⟨b, c, t, rfl⟩ : ∃ (b : Fin 128) (c : Fin 64) (t : Fin 16384), i = ix3 b c t := ⟨i 0, i 1, i 2, eq_ix3 i⟩
  rw [val_main_v20_apply, val_main_v19_apply, val_main_v18_apply, idx_v1819, gate_ix, Cert.Spec.scaled_ix]
  rfl

end Cert.ReferenceIdeal.RefValue

end
-- ==== Proof.lean ====
/- The certificate's claims assembled.
   Both programs compute, on extended reals, the gate s (b, c) = logistic (w2-layer of relu (w1-layer of the mean of x (b, c, ·)))
   and x scaled by it (the specification, Proof/Spec.lean). The kernel does it in two pallas_calls: the first accumulates
   the row sums of x tile by tile in a scratch and stores the gate at the last tile of each row block; the second
   multiplies each tile of x by the gate's block. The frames (both programs run to the end, fault nowhere, leave the
   arguments unchanged) come from the launch of the two regions one after the other; the values from the arrays the
   regions' write-backs leave (Ideal/Value0, Ideal/Value1), against the reference's run read one operation at a time
   (RefSide). The laws that join the two sides hold on all extended reals (sums regroup by commutativity and
   associativity; a product with 2^-14 is the quotient by 16384), so the finiteness precondition is never opened. -/
import proofs.«130802_j61168924230407_1_alg».proof.Defs
import proofs.«130802_j61168924230407_1_alg».proof.Proof.Gen.Kernel
import proofs.«130802_j61168924230407_1_alg».proof.Proof.Gen.KernelIdeal
import proofs.«130802_j61168924230407_1_alg».proof.Proof.Gen.ReferenceIdeal
import proofs.«130802_j61168924230407_1_alg».proof.Proof.Gen.Pre_finite_inputs
import proofs.«130802_j61168924230407_1_alg».proof.Proof.Gen.ReferenceIdeal.Run
import proofs.«130802_j61168924230407_1_alg».proof.Proof.Gen.ReferenceIdeal.Read
import proofs.«130802_j61168924230407_1_alg».proof.Proof.Bits.Run
import proofs.«130802_j61168924230407_1_alg».proof.Proof.Ideal.Run
import proofs.«130802_j61168924230407_1_alg».proof.Proof.Ideal.Value0
import proofs.«130802_j61168924230407_1_alg».proof.Proof.Ideal.Value1
import proofs.«130802_j61168924230407_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and keeps its arguments: the two regions' launch at the word-level instance. -/
theorem frame_k : Cert.frame_Kernel := fun m ρ _ => Cert.Kernel.Hand.frame (F := Bits) m ρ

/-- The same launch at the ideal instance. -/
theorem frame_ki : Cert.frame_KernelIdeal := fun m ρ _ => Cert.KernelIdeal.Hand.frame (F := Ideal) m ρ

/-- The reference is host operations only: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

open Cert.KernelIdeal.Hand in
/-- Both runs end with the specification's arrays of the (agreeing) arguments: the kernel's by the arrays its two
    regions leave, the reference's by its run read back. -/
theorem algebraic : Cert.algebraic_KernelIdeal_ReferenceIdeal := by
  intro m ρ m' ρ' _ hagree
  refine ⟨fun c => Cert.Spec.scaled (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Spec.gate (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · -- the kernel: region 1 leaves x scaled by what region 0 left, which is the gate
    refine (θ_run Cert.KernelIdeal.defs _ _).mono (fun _ h c => ⟨(h c).1.trans ?_, (h c).2.1.trans ?_, (h c).2.2⟩)
      (run_values (F := Ideal) m ρ)
    · rw [scaled_array (Vin1 m) c, Vin1_main_arg0 m c, Vin1_main_v0 m c, gate_array (Vin0 m) c]
      exact (Cert.Spec.scaled_eq _ _ _ _ _).symm
    · exact gate_array (Vin0 m) c
  · -- the reference: its run's terms are the stages, the stages the specification's arrays, at the agreeing arguments
    refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v20_eq, Cert.ReferenceIdeal.RefValue.ref_scaled, (hagree c).1, (hagree c).2.1, (hagree c).2.2.1, (hagree c).2.2.2.1, (hagree c).2.2.2.2]
    · rw [Cert.ReferenceIdeal.Read.val_main_v17_eq, Cert.ReferenceIdeal.RefValue.ref_gate, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
